-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x16 : Shape := ⟨2, ![1024, 16]⟩
abbrev S100000x16 : Shape := ⟨2, ![100000, 16]⟩
abbrev S_ : Shape := ⟨0, ![]⟩

class Facts : Prop where
  bcast_S_S1024x16 : S_.BroadcastsInDim S1024x16 (![] : Fin 0 → Fin S1024x16.rank)
  reducesTo_S1024x16_S_d0_1 : S1024x16.ReducesTo [0, 1] S_
  h_S_ : 0 < S_.numel
  bcast_S_S100000x16 : S_.BroadcastsInDim S100000x16 (![] : Fin 0 → Fin S100000x16.rank)
  reducesTo_S100000x16_S_d0_1 : S100000x16.ReducesTo [0, 1] S_

variable [Facts]

def fn {F : FTy → Type} [FloatOps F] (main_arg0 : FVec F S1024x16 .f32) (main_arg1 : FVec F S100000x16 .f32) (main_arg2 : FVec F S100000x16 .f32) : IVec S_ 1 :=
  let main_v0 : FVec F S1024x16 .f32 := Host.absf main_arg0
  let main_cst : FVec F S_ .f32 := constant S_ .f32 0x7F800000#32
  let main_v1 : FVec F S1024x16 .f32 := broadcastInDim S1024x16 ![] bcast_S_S1024x16 main_cst
  let main_v2 : IVec S1024x16 1 := cmpf .olt main_v0 main_v1
  let main_c : IVec S_ 1 := constantI S_ 1 1#1
  let main_v3 : IVec S_ 1 := (fun x v => Host.reduce IntOp.andi x v reducesTo_S1024x16_S_d0_1 h_S_) main_v2 main_c
  let main_v4 : FVec F S100000x16 .f32 := Host.absf main_arg1
  let main_cst_0 : FVec F S_ .f32 := constant S_ .f32 0x7F800000#32
  let main_v5 : FVec F S100000x16 .f32 := broadcastInDim S100000x16 ![] bcast_S_S100000x16 main_cst_0
  let main_v6 : IVec S100000x16 1 := cmpf .olt main_v4 main_v5
  let main_c_1 : IVec S_ 1 := constantI S_ 1 1#1
  let main_v7 : IVec S_ 1 := (fun x v => Host.reduce IntOp.andi x v reducesTo_S100000x16_S_d0_1 h_S_) main_v6 main_c_1
  let main_v8 : IVec S_ 1 := andi main_v3 main_v7
  let main_v9 : FVec F S100000x16 .f32 := Host.absf main_arg2
  let main_cst_2 : FVec F S_ .f32 := constant S_ .f32 0x7F800000#32
  let main_v10 : FVec F S100000x16 .f32 := broadcastInDim S100000x16 ![] bcast_S_S100000x16 main_cst_2
  let main_v11 : IVec S100000x16 1 := cmpf .olt main_v9 main_v10
  let main_c_3 : IVec S_ 1 := constantI S_ 1 1#1
  let main_v12 : IVec S_ 1 := (fun x v => Host.reduce IntOp.andi x v reducesTo_S100000x16_S_d0_1 h_S_) main_v11 main_c_3
  let main_v13 : IVec S_ 1 := andi main_v8 main_v12
  main_v13
-- ==== Kernel.lean ====
abbrev S1024x16 : Shape := ⟨2, ![1024, 16]⟩
abbrev S100000x16 : Shape := ⟨2, ![100000, 16]⟩
abbrev S2000x16 : Shape := ⟨2, ![2000, 16]⟩
abbrev S1024x1 : Shape := ⟨2, ![1024, 1]⟩
abbrev S1024x2000 : Shape := ⟨2, ![1024, 2000]⟩
abbrev S1024 : Shape := ⟨1, ![1024]⟩

abbrev nBuf : Space → Nat
  | .hbm => 4
  | .vmem => 9
  | .smem => 0
  | _ => 0

abbrev bufTy : (tb : Table) → Fin (tcTables nBuf tb) → BufTy
  | .hbm, ⟨0, _⟩ => ⟨S1024x16, .f32⟩
  | .hbm, ⟨1, _⟩ => ⟨S100000x16, .f32⟩
  | .hbm, ⟨2, _⟩ => ⟨S100000x16, .f32⟩
  | .hbm, ⟨3, _⟩ => ⟨S1024x16, .f32⟩
  | .local _ .vmem, ⟨0, _⟩ => ⟨S1024x16, .f32⟩
  | .local _ .vmem, ⟨1, _⟩ => ⟨S2000x16, .f32⟩
  | .local _ .vmem, ⟨2, _⟩ => ⟨S2000x16, .f32⟩
  | .local _ .vmem, ⟨3, _⟩ => ⟨S2000x16, .f32⟩
  | .local _ .vmem, ⟨4, _⟩ => ⟨S2000x16, .f32⟩
  | .local _ .vmem, ⟨5, _⟩ => ⟨S1024x16, .f32⟩
  | .local _ .vmem, ⟨6, _⟩ => ⟨S1024x1, .f32⟩
  | .local _ .vmem, ⟨7, _⟩ => ⟨S1024x1, .f32⟩
  | .local _ .vmem, ⟨8, _⟩ => ⟨S1024x16, .f32⟩
  | _, _ => ⟨S1024x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c49_i32 : BitVec 32 := 49#32
  let v35 : BitVec 1 := Scalar.cmpi .eq arg0 c49_i32
  let v36 : BitVec 32 := Scalar.extui v35
  let c0_i32_21 : BitVec 32 := 0#32
  let v37 : BitVec 1 := Scalar.cmpi .ne v36 c0_i32_21
  v37

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S2000x16_S2000x16_0_0 : ∀ a, (![0, 0] : Fin 2 → Nat) a + S2000x16.size a ≤ S2000x16.size a
  h_S2000x16 : 0 < S2000x16.numel
  reduces_S1024x2000_S1024 : S1024x2000.Reduces [1] S1024
  shapeCasts_S1024_S1024x1 : S1024.ShapeCasts S1024x1
  broadcasts_S1024x1_S1024x2000 : S1024x1.Broadcasts S1024x2000
  broadcasts_S1024x1_S1024x16 : S1024x1.Broadcasts S1024x16
  dot_S1024x16_S2000x16_S1024x2000_1_1_0_0_n_n_wf : DotDims.WF S1024x16 S2000x16 S1024x2000 [1] [1] [0] [0] [] []
  dot_S1024x2000_S2000x16_S1024x16_1_0_0_1_n_n_wf : DotDims.WF S1024x2000 S2000x16 S1024x16 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x16.size a ≤ S1024x16.size a
  hwx0_0 : ∀ i : grid0.Coords, EltTy.bits .f32 = 32 ∨ (Rect.block (s := S1024x16) S1024x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x16.size a ≤ S100000x16.size a
  hwx0_1 : ∀ i : grid0.Coords, EltTy.bits .f32 = 32 ∨ (Rect.block (s := S100000x16) S2000x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x16.size a ≤ S100000x16.size a
  hwx0_2 : ∀ i : grid0.Coords, EltTy.bits .f32 = 32 ∨ (Rect.block (s := S100000x16) S2000x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x16.size a ≤ S1024x16.size a
  hwx0_3 : ∀ i : grid0.Coords, EltTy.bits .f32 = 32 ∨ (Rect.block (s := S1024x16) S1024x16.size (cc0_transform_3 i) (hinb0_3 i)).WholeWords (EltTy.packing .f32)

variable [Facts₀]

def dot_S1024x16_S2000x16_S1024x2000_1_1_0_0_n_n : DotDims S1024x16 S2000x16 S1024x2000 where
  lhsContracting := [1]
  rhsContracting := [1]
  lhsNonContracting := [0]
  rhsNonContracting := [0]
  lhsBatch := []
  rhsBatch := []
  wf := dot_S1024x16_S2000x16_S1024x2000_1_1_0_0_n_n_wf
def dot_S1024x2000_S2000x16_S1024x16_1_0_0_1_n_n : DotDims S1024x2000 S2000x16 S1024x16 where
  lhsContracting := [1]
  rhsContracting := [0]
  lhsNonContracting := [0]
  rhsNonContracting := [1]
  lhsBatch := []
  rhsBatch := []
  wf := dot_S1024x2000_S2000x16_S1024x16_1_0_0_1_n_n_wf

abbrev win0_0 : Pipeline.Window sig grid0 :=
  Pipeline.Window.ofSpec (Memref.whole main_arg0) S1024x16.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2000x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x16.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S1024x16 : Shape := ⟨2, ![1024, 16]⟩
abbrev S100000x16 : Shape := ⟨2, ![100000, 16]⟩
abbrev S16x100000 : Shape := ⟨2, ![16, 100000]⟩
abbrev S1024x100000 : Shape := ⟨2, ![1024, 100000]⟩
abbrev S_ : Shape := ⟨0, ![]⟩
abbrev S1024 : Shape := ⟨1, ![1024]⟩
abbrev S1024x1 : Shape := ⟨2, ![1024, 1]⟩

abbrev nBuf : Space → Nat
  | .hbm => 20
  | .vmem => 0
  | .smem => 0
  | _ => 0

abbrev bufTy : (tb : Table) → Fin (tcTables nBuf tb) → BufTy
  | .hbm, ⟨0, _⟩ => ⟨S1024x16, .f32⟩
  | .hbm, ⟨1, _⟩ => ⟨S100000x16, .f32⟩
  | .hbm, ⟨2, _⟩ => ⟨S100000x16, .f32⟩
  | .hbm, ⟨3, _⟩ => ⟨S16x100000, .f32⟩
  | .hbm, ⟨4, _⟩ => ⟨S1024x100000, .f32⟩
  | .hbm, ⟨5, _⟩ => ⟨S_, .f32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S1024, .f32⟩
  | .hbm, ⟨10, _⟩ => ⟨S1024x1, .f32⟩
  | .hbm, ⟨11, _⟩ => ⟨S1024x100000, .f32⟩
  | .hbm, ⟨12, _⟩ => ⟨S1024x100000, .f32⟩
  | .hbm, ⟨13, _⟩ => ⟨S1024x100000, .f32⟩
  | .hbm, ⟨14, _⟩ => ⟨S_, .f32⟩
  | .hbm, ⟨15, _⟩ => ⟨S1024, .f32⟩
  | .hbm, ⟨16, _⟩ => ⟨S1024x1, .f32⟩
  | .hbm, ⟨17, _⟩ => ⟨S1024x100000, .f32⟩
  | .hbm, ⟨18, _⟩ => ⟨S1024x100000, .f32⟩
  | .hbm, ⟨19, _⟩ => ⟨S1024x16, .f32⟩
  | _, _ => ⟨S1024x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  transposes_S100000x16_S16x100000_1_0 : S100000x16.Transposes [1, 0] S16x100000
  reducesTo_S1024x100000_S1024_d1 : S1024x100000.ReducesTo [1] S1024
  h_S_ : 0 < S_.numel
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x100000_0_1 : S1024x1.BroadcastsInDim S1024x100000 (![0, 1] : Fin 2 → Fin S1024x100000.rank)
  dot_S1024x16_S16x100000_S1024x100000_1_0_0_1_n_n_wf : DotDims.WF S1024x16 S16x100000 S1024x100000 [1] [0] [0] [1] [] []
  dot_S1024x100000_S100000x16_S1024x16_1_0_0_1_n_n_wf : DotDims.WF S1024x100000 S100000x16 S1024x16 [1] [0] [0] [1] [] []

variable [Facts₀]

def dot_S1024x16_S16x100000_S1024x100000_1_0_0_1_n_n : DotDims S1024x16 S16x100000 S1024x100000 where
  lhsContracting := [1]
  rhsContracting := [0]
  lhsNonContracting := [0]
  rhsNonContracting := [1]
  lhsBatch := []
  rhsBatch := []
  wf := dot_S1024x16_S16x100000_S1024x100000_1_0_0_1_n_n_wf
def dot_S1024x100000_S100000x16_S1024x16_1_0_0_1_n_n : DotDims S1024x100000 S100000x16 S1024x16 where
  lhsContracting := [1]
  rhsContracting := [0]
  lhsNonContracting := [0]
  rhsNonContracting := [1]
  lhsBatch := []
  rhsBatch := []
  wf := dot_S1024x100000_S100000x16_S1024x16_1_0_0_1_n_n_wf

class Facts : Prop extends Facts₀ where

variable [Facts]
-- ==== Proof.FiniteInputs.lean ====
import proofs.«175973_g19181323944180_cont_8to1_1754_2_alg».proof.Pre_finite_inputs
import Idealize.ShloMosaic.PureOps.Ideal
import Idealize.ShloMosaic.Lib.ReduceAll
import Idealize.ShloMosaic.Lib.ValueIdx

/-!
  What the precondition says of the inputs at the ideal values.

  The precondition is, for each of the three input arrays, "every entry's absolute value is below +∞", the three
  answers and-ed. Over the extended reals `|x| = max x (−x) < ⊤` rules out both infinities, so every entry is a real
  number: the coercion of its own real part.
-/

noncomputable section

namespace Cert.Finite

open Idealize.ShloMosaic

/-- The shape of a scalar has exactly one index: the empty tuple of coordinates. -/
instance : Subsingleton Cert.Pre_finite_inputs.S_.Idx := ⟨fun a b => funext fun d => d.elim0⟩

/-- An extended real whose absolute value `max x (-x)` lies strictly below `⊤` is neither infinity,
    so it is the coercion of its own real part. -/
theorem eq_coe_toReal_of_abs_lt_top (x : EReal) (h : max x (-x) < ⊤) : x = ((x.toReal : ℝ) : EReal) := by
  induction x using EReal.rec with
  | bot => simp at h
  | coe r => rfl
  | top => simp at h

/-- One conjunct of the precondition: if the conjunction, over all entries `i`, of the comparison
    `|x i| < +∞` is true, then every entry of `x` is real. -/
theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x)
            (broadcastInDim s ![] hb (constant (F := Ideal) Cert.Pre_finite_inputs.S_ .f32 0x7F800000#32)))
          (constantI Cert.Pre_finite_inputs.S_ 1 1#1) hr hu ValueIdx.ix0 = 1#1)
    (i : s.Idx) : x i = (((x i).toReal : ℝ) : EReal) := by
  have hi := Host.reduce_andi_all _ _ hr hu ValueIdx.ix0 e i
  apply eq_coe_toReal_of_abs_lt_top
  have htop : Ideal.ofBits .f32 0x7F800000#32 = ⊤ := by simp [Ideal.ofBits, Ideal.ieee]
  simp only [cmpf, Host.absf, broadcastInDim, constant] at hi
  change Ideal.cmp .olt (max (x i) (-(x i))) (Ideal.ofBits .f32 0x7F800000#32) = 1#1 at hi
  rw [htop] at hi
  by_contra hlt
  simp [Ideal.cmp, hlt] at hi

/-- Under the precondition every entry of the three inputs is a real number (neither infinity):
    each is the coercion of its own real part. -/
theorem real_of_pre [Cert.Pre_finite_inputs.Facts]
    (q : FVec Ideal Cert.Pre_finite_inputs.S1024x16 .f32) (k v : FVec Ideal Cert.Pre_finite_inputs.S100000x16 .f32)
    (h : Cert.Pre_finite_inputs.fn (F := Ideal) q k v = fun _ => 1#1) :
    (∀ i, q i = (((q i).toReal : ℝ) : EReal)) ∧ (∀ i, k i = (((k i).toReal : ℝ) : EReal))
      ∧ (∀ i, v i = (((v i).toReal : ℝ) : EReal)) := by
  have h0 := congrFun h ValueIdx.ix0
  unfold Cert.Pre_finite_inputs.fn at h0
  dsimp only at h0
  simp only [andi] at h0
  rw [IntOp.andi_eq_one, IntOp.andi_eq_one] at h0
  obtain ⟨⟨hq, hk⟩, hv⟩ := h0
  exact ⟨real_of_all q _ _ _ hq, real_of_all k _ _ _ hk, real_of_all v _ _ _ hv⟩

end Cert.Finite

end
-- ==== Proof.KPieces.lean ====
import proofs.«175973_g19181323944180_cont_8to1_1754_2_alg».proof.Proof.Gen.KernelIdeal.Frame
import Idealize.ShloMosaic.Lib.Pipeline.Value
import Idealize.ShloMosaic.Lib.Tactic

/-!
  The body's stores, read back as values, case by case (any float instance).

  The grid has 50 points; the body branches on the point: the FIRST point (case A) seeds the three carried
  buffers — running maximum `m := −1e30`, denominator `l := 0`, numerator `acc := 0` — before the common step; a
  MIDDLE point (case B) does the common step only; the LAST point (case C) does the common step and then stores
  `acc / l` into the output block. The common step, on the query block `x0`, the point's key block `x1` and value
  block `x2`, and the carried `m`, `l`, `acc`:

      m'   = max m (rowmax (x0 · x1ᵀ))                      (`k0_pay10`)
      l'   = l · exp (m − m') + rowsum (exp (x0 · x1ᵀ − m'))   (`k0_pay11`)
      acc' = acc · exp (m − m') + exp (x0 · x1ᵀ − m') · x2     (`k0_pay1 ∘ k0_pay12`)

  Each lemma says that what a case leaves in a buffer is that payload of the blocks and of what the buffer held
  (in case A: of the seed just stored, which the step reads back).
-/

noncomputable section
open Idealize.ShloMosaic Idealize.ShloMosaic.TcCoe Idealize.SL.Sem
namespace Cert.KernelIdeal.KV
open Cert.KernelIdeal Cert.KernelIdeal.Gen
variable {F : FTy → Type} [FloatOps F]

/-- The zero offsets of a whole-buffer rectangle. -/
theorem hz : (![0, 0] : Fin 2 → Nat) = fun _ => 0 := funext fun a => by fin_cases a <;> rfl

/-- What a point of case A leaves in the running-maximum scratch: the new maximum, of the query block, the key block and the maximum it found (here the seed it has just stored). -/
theorem sout0_A_0_eq (c : Dev nD) (i : grid0.Coords) (a1 : Memref sig .tc .vmem S1024x16 .f32) (h1 : a1.IsWhole)
    (a2 : Memref sig .tc .vmem S2000x16 .f32) (h2 : a2.IsWhole) (a3 : Memref sig .tc .vmem S2000x16 .f32) (h3 : a3.IsWhole)
    (a4 : Memref sig .tc .vmem S1024x16 .f32) (h4 : a4.IsWhole) (a5 : Memref sig .tc .vmem S1024x1 .f32) (h5 : a5.IsWhole)
    (a6 : Memref sig .tc .vmem S1024x1 .f32) (h6 : a6.IsWhole) (a7 : Memref sig .tc .vmem S1024x16 .f32) (h7 : a7.IsWhole)
    (hc0 : cond0_0 i) (hc1 : ¬cond0_1 i)
    (x0 : Vec F S1024x16 .f32) (x1 : Vec F S2000x16 .f32) (x2 : Vec F S2000x16 .f32) :
    sout0_A_0 c i a1 h1 a2 h2 a3 h3 a4 h4 a5 h5 a6 h6 a7 h7 hc0 hc1 x0 x1 x2 = k0_pay10 x0 x1 k0_pay3 := by
  unfold sout0_A_0
  rw [View.read_writes_eq_canon _ _ _ (scover0_A_0 c i a1 h1 a2 h2 a3 h3 a4 h4 a5 h5 a6 h6 a7 h7 hc0 hc1 x0 x1 x2)]
  unfold kernelRun0_A
  dsimp only
  sl_unfold_words
  rw [View.canon_cons_unit_zero (S := S1024x1) hz]
  simp only [View.readAt_eq_ld, h1.read_unread, h2.read_unread, h3.read_unread, h4.read_unread, h5.read_unread, h6.read_unread, h7.read_unread,
    View.ld_unit_zero (S := S1024x16) hz, View.ld_unit_zero (S := S2000x16) hz, View.ld_unit_zero (S := S1024x1) hz,
    View.readCov_unit_zero (S := S1024x1) _ hz, View.readCov_unit_zero (S := S1024x16) _ hz]

/-- What a point of case A leaves in the denominator scratch: the rescaled old denominator (here the zero it has just stored) plus the block's sum of exponentials. -/
theorem sout0_A_1_eq (c : Dev nD) (i : grid0.Coords) (a1 : Memref sig .tc .vmem S1024x16 .f32) (h1 : a1.IsWhole)
    (a2 : Memref sig .tc .vmem S2000x16 .f32) (h2 : a2.IsWhole) (a3 : Memref sig .tc .vmem S2000x16 .f32) (h3 : a3.IsWhole)
    (a4 : Memref sig .tc .vmem S1024x16 .f32) (h4 : a4.IsWhole) (a5 : Memref sig .tc .vmem S1024x1 .f32) (h5 : a5.IsWhole)
    (a6 : Memref sig .tc .vmem S1024x1 .f32) (h6 : a6.IsWhole) (a7 : Memref sig .tc .vmem S1024x16 .f32) (h7 : a7.IsWhole)
    (hc0 : cond0_0 i) (hc1 : ¬cond0_1 i)
    (x0 : Vec F S1024x16 .f32) (x1 : Vec F S2000x16 .f32) (x2 : Vec F S2000x16 .f32) :
    sout0_A_1 c i a1 h1 a2 h2 a3 h3 a4 h4 a5 h5 a6 h6 a7 h7 hc0 hc1 x0 x1 x2 = k0_pay11 x0 x1 k0_pay3 k0_pay4 := by
  unfold sout0_A_1
  rw [View.read_writes_eq_canon _ _ _ (scover0_A_1 c i a1 h1 a2 h2 a3 h3 a4 h4 a5 h5 a6 h6 a7 h7 hc0 hc1 x0 x1 x2)]
  unfold kernelRun0_A
  dsimp only
  sl_unfold_words
  rw [View.canon_cons_unit_zero (S := S1024x1) hz]
  simp only [View.readAt_eq_ld, h1.read_unread, h2.read_unread, h3.read_unread, h4.read_unread, h5.read_unread, h6.read_unread, h7.read_unread,
    View.ld_unit_zero (S := S1024x16) hz, View.ld_unit_zero (S := S2000x16) hz, View.ld_unit_zero (S := S1024x1) hz,
    View.readCov_unit_zero (S := S1024x1) _ hz, View.readCov_unit_zero (S := S1024x16) _ hz]

/-- What a point of case A leaves in the numerator scratch: the rescaled old numerator (here the zero block it has just stored) plus the block's exponentials times the value block. -/
theorem sout0_A_2_eq (c : Dev nD) (i : grid0.Coords) (a1 : Memref sig .tc .vmem S1024x16 .f32) (h1 : a1.IsWhole)
    (a2 : Memref sig .tc .vmem S2000x16 .f32) (h2 : a2.IsWhole) (a3 : Memref sig .tc .vmem S2000x16 .f32) (h3 : a3.IsWhole)
    (a4 : Memref sig .tc .vmem S1024x16 .f32) (h4 : a4.IsWhole) (a5 : Memref sig .tc .vmem S1024x1 .f32) (h5 : a5.IsWhole)
    (a6 : Memref sig .tc .vmem S1024x1 .f32) (h6 : a6.IsWhole) (a7 : Memref sig .tc .vmem S1024x16 .f32) (h7 : a7.IsWhole)
    (hc0 : cond0_0 i) (hc1 : ¬cond0_1 i)
    (x0 : Vec F S1024x16 .f32) (x1 : Vec F S2000x16 .f32) (x2 : Vec F S2000x16 .f32) :
    sout0_A_2 c i a1 h1 a2 h2 a3 h3 a4 h4 a5 h5 a6 h6 a7 h7 hc0 hc1 x0 x1 x2 = k0_pay1 (k0_pay12 x0 x1 k0_pay3 k0_pay5 x2) := by
  unfold sout0_A_2
  rw [View.read_writes_eq_canon _ _ _ (scover0_A_2 c i a1 h1 a2 h2 a3 h3 a4 h4 a5 h5 a6 h6 a7 h7 hc0 hc1 x0 x1 x2)]
  unfold kernelRun0_A
  dsimp only
  sl_unfold_words
  rw [View.canon_cons_unit_zero (S := S1024x16) hz]
  simp only [View.readAt_eq_ld, h1.read_unread, h2.read_unread, h3.read_unread, h4.read_unread, h5.read_unread, h6.read_unread, h7.read_unread,
    View.ld_unit_zero (S := S1024x16) hz, View.ld_unit_zero (S := S2000x16) hz, View.ld_unit_zero (S := S1024x1) hz,
    View.readCov_unit_zero (S := S1024x1) _ hz, View.readCov_unit_zero (S := S1024x16) _ hz]

/-- What a point of case B leaves in the running-maximum scratch: the new maximum, of the query block, the key block and the maximum it found. -/
theorem sout0_B_0_eq (c : Dev nD) (i : grid0.Coords) (a1 : Memref sig .tc .vmem S1024x16 .f32) (h1 : a1.IsWhole)
    (a2 : Memref sig .tc .vmem S2000x16 .f32) (h2 : a2.IsWhole) (a3 : Memref sig .tc .vmem S2000x16 .f32) (h3 : a3.IsWhole)
    (a4 : Memref sig .tc .vmem S1024x16 .f32) (h4 : a4.IsWhole) (a5 : Memref sig .tc .vmem S1024x1 .f32) (h5 : a5.IsWhole)
    (a6 : Memref sig .tc .vmem S1024x1 .f32) (h6 : a6.IsWhole) (a7 : Memref sig .tc .vmem S1024x16 .f32) (h7 : a7.IsWhole)
    (hc0 : ¬cond0_0 i) (hc1 : ¬cond0_1 i)
    (x0 : Vec F S1024x16 .f32) (x1 : Vec F S2000x16 .f32) (x2 : Vec F S2000x16 .f32) (xs0 : Vec F S1024x1 .f32) (xs1 : Vec F S1024x1 .f32) (xs2 : Vec F S1024x16 .f32) :
    sout0_B_0 c i a1 h1 a2 h2 a3 h3 a4 h4 a5 h5 a6 h6 a7 h7 hc0 hc1 x0 x1 x2 xs0 xs1 xs2 = k0_pay10 x0 x1 xs0 := by
  unfold sout0_B_0
  rw [View.read_writes_eq_canon _ _ _ (scover0_B_0 c i a1 h1 a2 h2 a3 h3 a4 h4 a5 h5 a6 h6 a7 h7 hc0 hc1 x0 x1 x2 xs0 xs1 xs2)]
  unfold kernelRun0_B
  dsimp only
  sl_unfold_words
  rw [View.canon_unit_zero hz]
  simp only [View.readAt_eq_ld, h1.read_unread, h2.read_unread, h3.read_unread, h4.read_unread, h5.read_unread, h6.read_unread, h7.read_unread,
    View.ld_unit_zero (S := S1024x16) hz, View.ld_unit_zero (S := S2000x16) hz, View.ld_unit_zero (S := S1024x1) hz,
    View.readCov_unit_zero (S := S1024x1) _ hz, View.readCov_unit_zero (S := S1024x16) _ hz]

/-- What a point of case B leaves in the denominator scratch: the rescaled old denominator plus the block's sum of exponentials. -/
theorem sout0_B_1_eq (c : Dev nD) (i : grid0.Coords) (a1 : Memref sig .tc .vmem S1024x16 .f32) (h1 : a1.IsWhole)
    (a2 : Memref sig .tc .vmem S2000x16 .f32) (h2 : a2.IsWhole) (a3 : Memref sig .tc .vmem S2000x16 .f32) (h3 : a3.IsWhole)
    (a4 : Memref sig .tc .vmem S1024x16 .f32) (h4 : a4.IsWhole) (a5 : Memref sig .tc .vmem S1024x1 .f32) (h5 : a5.IsWhole)
    (a6 : Memref sig .tc .vmem S1024x1 .f32) (h6 : a6.IsWhole) (a7 : Memref sig .tc .vmem S1024x16 .f32) (h7 : a7.IsWhole)
    (hc0 : ¬cond0_0 i) (hc1 : ¬cond0_1 i)
    (x0 : Vec F S1024x16 .f32) (x1 : Vec F S2000x16 .f32) (x2 : Vec F S2000x16 .f32) (xs0 : Vec F S1024x1 .f32) (xs1 : Vec F S1024x1 .f32) (xs2 : Vec F S1024x16 .f32) :
    sout0_B_1 c i a1 h1 a2 h2 a3 h3 a4 h4 a5 h5 a6 h6 a7 h7 hc0 hc1 x0 x1 x2 xs0 xs1 xs2 = k0_pay11 x0 x1 xs0 xs1 := by
  unfold sout0_B_1
  rw [View.read_writes_eq_canon _ _ _ (scover0_B_1 c i a1 h1 a2 h2 a3 h3 a4 h4 a5 h5 a6 h6 a7 h7 hc0 hc1 x0 x1 x2 xs0 xs1 xs2)]
  unfold kernelRun0_B
  dsimp only
  sl_unfold_words
  rw [View.canon_unit_zero hz]
  simp only [View.readAt_eq_ld, h1.read_unread, h2.read_unread, h3.read_unread, h4.read_unread, h5.read_unread, h6.read_unread, h7.read_unread,
    View.ld_unit_zero (S := S1024x16) hz, View.ld_unit_zero (S := S2000x16) hz, View.ld_unit_zero (S := S1024x1) hz,
    View.readCov_unit_zero (S := S1024x1) _ hz, View.readCov_unit_zero (S := S1024x16) _ hz]

/-- What a point of case B leaves in the numerator scratch: the rescaled old numerator plus the block's exponentials times the value block. -/
theorem sout0_B_2_eq (c : Dev nD) (i : grid0.Coords) (a1 : Memref sig .tc .vmem S1024x16 .f32) (h1 : a1.IsWhole)
    (a2 : Memref sig .tc .vmem S2000x16 .f32) (h2 : a2.IsWhole) (a3 : Memref sig .tc .vmem S2000x16 .f32) (h3 : a3.IsWhole)
    (a4 : Memref sig .tc .vmem S1024x16 .f32) (h4 : a4.IsWhole) (a5 : Memref sig .tc .vmem S1024x1 .f32) (h5 : a5.IsWhole)
    (a6 : Memref sig .tc .vmem S1024x1 .f32) (h6 : a6.IsWhole) (a7 : Memref sig .tc .vmem S1024x16 .f32) (h7 : a7.IsWhole)
    (hc0 : ¬cond0_0 i) (hc1 : ¬cond0_1 i)
    (x0 : Vec F S1024x16 .f32) (x1 : Vec F S2000x16 .f32) (x2 : Vec F S2000x16 .f32) (xs0 : Vec F S1024x1 .f32) (xs1 : Vec F S1024x1 .f32) (xs2 : Vec F S1024x16 .f32) :
    sout0_B_2 c i a1 h1 a2 h2 a3 h3 a4 h4 a5 h5 a6 h6 a7 h7 hc0 hc1 x0 x1 x2 xs0 xs1 xs2 = k0_pay1 (k0_pay12 x0 x1 xs0 xs2 x2) := by
  unfold sout0_B_2
  rw [View.read_writes_eq_canon _ _ _ (scover0_B_2 c i a1 h1 a2 h2 a3 h3 a4 h4 a5 h5 a6 h6 a7 h7 hc0 hc1 x0 x1 x2 xs0 xs1 xs2)]
  unfold kernelRun0_B
  dsimp only
  sl_unfold_words
  rw [View.canon_unit_zero hz]
  simp only [View.readAt_eq_ld, h1.read_unread, h2.read_unread, h3.read_unread, h4.read_unread, h5.read_unread, h6.read_unread, h7.read_unread,
    View.ld_unit_zero (S := S1024x16) hz, View.ld_unit_zero (S := S2000x16) hz, View.ld_unit_zero (S := S1024x1) hz,
    View.readCov_unit_zero (S := S1024x1) _ hz, View.readCov_unit_zero (S := S1024x16) _ hz]

/-- What a point of case C leaves in the running-maximum scratch: the new maximum, of the query block, the key block and the maximum it found. -/
theorem sout0_C_0_eq (c : Dev nD) (i : grid0.Coords) (a1 : Memref sig .tc .vmem S1024x16 .f32) (h1 : a1.IsWhole)
    (a2 : Memref sig .tc .vmem S2000x16 .f32) (h2 : a2.IsWhole) (a3 : Memref sig .tc .vmem S2000x16 .f32) (h3 : a3.IsWhole)
    (a4 : Memref sig .tc .vmem S1024x16 .f32) (h4 : a4.IsWhole) (a5 : Memref sig .tc .vmem S1024x1 .f32) (h5 : a5.IsWhole)
    (a6 : Memref sig .tc .vmem S1024x1 .f32) (h6 : a6.IsWhole) (a7 : Memref sig .tc .vmem S1024x16 .f32) (h7 : a7.IsWhole)
    (hc0 : ¬cond0_0 i) (hc1 : cond0_1 i)
    (x0 : Vec F S1024x16 .f32) (x1 : Vec F S2000x16 .f32) (x2 : Vec F S2000x16 .f32) (xs0 : Vec F S1024x1 .f32) (xs1 : Vec F S1024x1 .f32) (xs2 : Vec F S1024x16 .f32) :
    sout0_C_0 c i a1 h1 a2 h2 a3 h3 a4 h4 a5 h5 a6 h6 a7 h7 hc0 hc1 x0 x1 x2 xs0 xs1 xs2 = k0_pay10 x0 x1 xs0 := by
  unfold sout0_C_0
  rw [View.read_writes_eq_canon _ _ _ (scover0_C_0 c i a1 h1 a2 h2 a3 h3 a4 h4 a5 h5 a6 h6 a7 h7 hc0 hc1 x0 x1 x2 xs0 xs1 xs2)]
  unfold kernelRun0_C
  dsimp only
  sl_unfold_words
  rw [View.canon_unit_zero hz]
  simp only [View.readAt_eq_ld, h1.read_unread, h2.read_unread, h3.read_unread, h4.read_unread, h5.read_unread, h6.read_unread, h7.read_unread,
    View.ld_unit_zero (S := S1024x16) hz, View.ld_unit_zero (S := S2000x16) hz, View.ld_unit_zero (S := S1024x1) hz,
    View.readCov_unit_zero (S := S1024x1) _ hz, View.readCov_unit_zero (S := S1024x16) _ hz]

/-- What a point of case C leaves in the denominator scratch: the rescaled old denominator plus the block's sum of exponentials. -/
theorem sout0_C_1_eq (c : Dev nD) (i : grid0.Coords) (a1 : Memref sig .tc .vmem S1024x16 .f32) (h1 : a1.IsWhole)
    (a2 : Memref sig .tc .vmem S2000x16 .f32) (h2 : a2.IsWhole) (a3 : Memref sig .tc .vmem S2000x16 .f32) (h3 : a3.IsWhole)
    (a4 : Memref sig .tc .vmem S1024x16 .f32) (h4 : a4.IsWhole) (a5 : Memref sig .tc .vmem S1024x1 .f32) (h5 : a5.IsWhole)
    (a6 : Memref sig .tc .vmem S1024x1 .f32) (h6 : a6.IsWhole) (a7 : Memref sig .tc .vmem S1024x16 .f32) (h7 : a7.IsWhole)
    (hc0 : ¬cond0_0 i) (hc1 : cond0_1 i)
    (x0 : Vec F S1024x16 .f32) (x1 : Vec F S2000x16 .f32) (x2 : Vec F S2000x16 .f32) (xs0 : Vec F S1024x1 .f32) (xs1 : Vec F S1024x1 .f32) (xs2 : Vec F S1024x16 .f32) :
    sout0_C_1 c i a1 h1 a2 h2 a3 h3 a4 h4 a5 h5 a6 h6 a7 h7 hc0 hc1 x0 x1 x2 xs0 xs1 xs2 = k0_pay11 x0 x1 xs0 xs1 := by
  unfold sout0_C_1
  rw [View.read_writes_eq_canon _ _ _ (scover0_C_1 c i a1 h1 a2 h2 a3 h3 a4 h4 a5 h5 a6 h6 a7 h7 hc0 hc1 x0 x1 x2 xs0 xs1 xs2)]
  unfold kernelRun0_C
  dsimp only
  sl_unfold_words
  rw [View.canon_unit_zero hz]
  simp only [View.readAt_eq_ld, h1.read_unread, h2.read_unread, h3.read_unread, h4.read_unread, h5.read_unread, h6.read_unread, h7.read_unread,
    View.ld_unit_zero (S := S1024x16) hz, View.ld_unit_zero (S := S2000x16) hz, View.ld_unit_zero (S := S1024x1) hz,
    View.readCov_unit_zero (S := S1024x1) _ hz, View.readCov_unit_zero (S := S1024x16) _ hz]

/-- What a point of case C leaves in the numerator scratch: the rescaled old numerator plus the block's exponentials times the value block. -/
theorem sout0_C_2_eq (c : Dev nD) (i : grid0.Coords) (a1 : Memref sig .tc .vmem S1024x16 .f32) (h1 : a1.IsWhole)
    (a2 : Memref sig .tc .vmem S2000x16 .f32) (h2 : a2.IsWhole) (a3 : Memref sig .tc .vmem S2000x16 .f32) (h3 : a3.IsWhole)
    (a4 : Memref sig .tc .vmem S1024x16 .f32) (h4 : a4.IsWhole) (a5 : Memref sig .tc .vmem S1024x1 .f32) (h5 : a5.IsWhole)
    (a6 : Memref sig .tc .vmem S1024x1 .f32) (h6 : a6.IsWhole) (a7 : Memref sig .tc .vmem S1024x16 .f32) (h7 : a7.IsWhole)
    (hc0 : ¬cond0_0 i) (hc1 : cond0_1 i)
    (x0 : Vec F S1024x16 .f32) (x1 : Vec F S2000x16 .f32) (x2 : Vec F S2000x16 .f32) (xs0 : Vec F S1024x1 .f32) (xs1 : Vec F S1024x1 .f32) (xs2 : Vec F S1024x16 .f32) :
    sout0_C_2 c i a1 h1 a2 h2 a3 h3 a4 h4 a5 h5 a6 h6 a7 h7 hc0 hc1 x0 x1 x2 xs0 xs1 xs2 = k0_pay1 (k0_pay12 x0 x1 xs0 xs2 x2) := by
  unfold sout0_C_2
  rw [View.read_writes_eq_canon _ _ _ (scover0_C_2 c i a1 h1 a2 h2 a3 h3 a4 h4 a5 h5 a6 h6 a7 h7 hc0 hc1 x0 x1 x2 xs0 xs1 xs2)]
  unfold kernelRun0_C
  dsimp only
  sl_unfold_words
  rw [View.canon_unit_zero hz]
  simp only [View.readAt_eq_ld, h1.read_unread, h2.read_unread, h3.read_unread, h4.read_unread, h5.read_unread, h6.read_unread, h7.read_unread,
    View.ld_unit_zero (S := S1024x16) hz, View.ld_unit_zero (S := S2000x16) hz, View.ld_unit_zero (S := S1024x1) hz,
    View.readCov_unit_zero (S := S1024x1) _ hz, View.readCov_unit_zero (S := S1024x16) _ hz]

/-- What the last point stores into the output block: the numerator it has just stored over the denominator it has just stored. -/
theorem out0_C_3_eq (c : Dev nD) (i : grid0.Coords) (a1 : Memref sig .tc .vmem S1024x16 .f32) (h1 : a1.IsWhole)
    (a2 : Memref sig .tc .vmem S2000x16 .f32) (h2 : a2.IsWhole) (a3 : Memref sig .tc .vmem S2000x16 .f32) (h3 : a3.IsWhole)
    (a4 : Memref sig .tc .vmem S1024x16 .f32) (h4 : a4.IsWhole) (a5 : Memref sig .tc .vmem S1024x1 .f32) (h5 : a5.IsWhole)
    (a6 : Memref sig .tc .vmem S1024x1 .f32) (h6 : a6.IsWhole) (a7 : Memref sig .tc .vmem S1024x16 .f32) (h7 : a7.IsWhole)
    (hc0 : ¬cond0_0 i) (hc1 : cond0_1 i)
    (x0 : Vec F S1024x16 .f32) (x1 : Vec F S2000x16 .f32) (x2 : Vec F S2000x16 .f32) (xs0 : Vec F S1024x1 .f32) (xs1 : Vec F S1024x1 .f32) (xs2 : Vec F S1024x16 .f32) :
    out0_C_3 c i a1 h1 a2 h2 a3 h3 a4 h4 a5 h5 a6 h6 a7 h7 hc0 hc1 x0 x1 x2 xs0 xs1 xs2 = k0_pay2 (k0_pay1 (k0_pay12 x0 x1 xs0 xs2 x2)) (k0_pay11 x0 x1 xs0 xs1) := by
  unfold out0_C_3
  rw [View.read_writes_eq_canon _ _ _ (cover0_C_3 c i a1 h1 a2 h2 a3 h3 a4 h4 a5 h5 a6 h6 a7 h7 hc0 hc1 x0 x1 x2 xs0 xs1 xs2)]
  unfold kernelRun0_C
  dsimp only
  sl_unfold_words
  rw [View.canon_unit_zero hz]
  simp only [View.readAt_eq_ld, h1.read_unread, h2.read_unread, h3.read_unread, h4.read_unread, h5.read_unread, h6.read_unread, h7.read_unread,
    View.ld_unit_zero (S := S1024x16) hz, View.ld_unit_zero (S := S2000x16) hz, View.ld_unit_zero (S := S1024x1) hz,
    View.readCov_unit_zero (S := S1024x1) _ hz, View.readCov_unit_zero (S := S1024x16) _ hz]

end Cert.KernelIdeal.KV
end
-- ==== Proof.KPayload.lean ====
import proofs.«175973_g19181323944180_cont_8to1_1754_2_alg».proof.Proof.Gen.KernelIdeal.Skeleton
import Idealize.ShloMosaic.Lib.Pipeline.Value
import Idealize.ShloMosaic.Lib.ValueIdx
import Idealize.ShloMosaic.PureOps.Ideal.Laws

/-!
  The body's payloads read at an index, at the ideal values (extended reals).

  With `q` the query block [1024, 16], `k` the point's key block [2000, 16], `v` its value block [2000, 16], and
  `m`, `l` [1024, 1], `acc` [1024, 16] what the carried buffers held, row `b`, column `c`:

      s b i    = ∑ d, q[b, d] · k[i, d]                                  the block similarity (`bsim`)
      m' b     = max (m b) (max over i of s b i, from −∞)
      α b      = exp (m b − m' b),   p b i = exp (s b i − m' b)
      l' b     = l b · α b + ∑ i, p b i
      acc' b c = acc b c · α b + ∑ i, p b i · v[i, c]
      out b c  = acc b c / l b

  The two matrix products are sums over the contracted axis, the row reductions a fold of `max` from −∞ and a
  sum from zero over the block's 2000 columns, the [1024] → [1024, 1] cast and the [1024, 1] → [1024, n]
  broadcasts re-index a row's one entry.
-/

noncomputable section
open Idealize.ShloMosaic Idealize.ShloMosaic.TcCoe Idealize.ShloMosaic.ValueIdx
namespace Cert.KernelIdeal.KV
open Cert.KernelIdeal Cert.KernelIdeal.Gen

/-! ## The two contractions' operand indices -/

theorem lhsS_0 (j : S1024x2000.Idx) (r : dot_S1024x16_S2000x16_S1024x2000_1_1_0_0_n_n.contr.Idx) :
    (dot_S1024x16_S2000x16_S1024x2000_1_1_0_0_n_n.lhsIdx j r 0).val = (j 0).val := by
  unfold DotDims.lhsIdx
  rw [dif_neg (show ¬(0 : Fin S1024x16.rank) ∈ dot_S1024x16_S2000x16_S1024x2000_1_1_0_0_n_n.lhsBatch by decide), dif_pos (show (0 : Fin S1024x16.rank) ∈ dot_S1024x16_S2000x16_S1024x2000_1_1_0_0_n_n.lhsNonContracting by decide)]
  rfl
theorem lhsS_1 (j : S1024x2000.Idx) (r : dot_S1024x16_S2000x16_S1024x2000_1_1_0_0_n_n.contr.Idx) :
    (dot_S1024x16_S2000x16_S1024x2000_1_1_0_0_n_n.lhsIdx j r 1).val = (r ⟨0, by decide⟩).val :=
  dot_S1024x16_S2000x16_S1024x2000_1_1_0_0_n_n.lhsIdx_val_of_single rfl j r
theorem rhsS_0 (j : S1024x2000.Idx) (r : dot_S1024x16_S2000x16_S1024x2000_1_1_0_0_n_n.contr.Idx) :
    (dot_S1024x16_S2000x16_S1024x2000_1_1_0_0_n_n.rhsIdx j r 0).val = (j 1).val := by
  unfold DotDims.rhsIdx
  rw [dif_neg (show ¬(0 : Fin S2000x16.rank) ∈ dot_S1024x16_S2000x16_S1024x2000_1_1_0_0_n_n.rhsBatch by decide), dif_pos (show (0 : Fin S2000x16.rank) ∈ dot_S1024x16_S2000x16_S1024x2000_1_1_0_0_n_n.rhsNonContracting by decide)]
  rfl
theorem rhsS_1 (j : S1024x2000.Idx) (r : dot_S1024x16_S2000x16_S1024x2000_1_1_0_0_n_n.contr.Idx) :
    (dot_S1024x16_S2000x16_S1024x2000_1_1_0_0_n_n.rhsIdx j r 1).val = (r ⟨0, by decide⟩).val :=
  dot_S1024x16_S2000x16_S1024x2000_1_1_0_0_n_n.rhsIdx_val_of_single rfl j r

theorem lhsV_0 (j : S1024x16.Idx) (r : dot_S1024x2000_S2000x16_S1024x16_1_0_0_1_n_n.contr.Idx) :
    (dot_S1024x2000_S2000x16_S1024x16_1_0_0_1_n_n.lhsIdx j r 0).val = (j 0).val := by
  unfold DotDims.lhsIdx
  rw [dif_neg (show ¬(0 : Fin S1024x2000.rank) ∈ dot_S1024x2000_S2000x16_S1024x16_1_0_0_1_n_n.lhsBatch by decide), dif_pos (show (0 : Fin S1024x2000.rank) ∈ dot_S1024x2000_S2000x16_S1024x16_1_0_0_1_n_n.lhsNonContracting by decide)]
  rfl
theorem lhsV_1 (j : S1024x16.Idx) (r : dot_S1024x2000_S2000x16_S1024x16_1_0_0_1_n_n.contr.Idx) :
    (dot_S1024x2000_S2000x16_S1024x16_1_0_0_1_n_n.lhsIdx j r 1).val = (r ⟨0, by decide⟩).val :=
  dot_S1024x2000_S2000x16_S1024x16_1_0_0_1_n_n.lhsIdx_val_of_single rfl j r
theorem rhsV_0 (j : S1024x16.Idx) (r : dot_S1024x2000_S2000x16_S1024x16_1_0_0_1_n_n.contr.Idx) :
    (dot_S1024x2000_S2000x16_S1024x16_1_0_0_1_n_n.rhsIdx j r 0).val = (r ⟨0, by decide⟩).val :=
  dot_S1024x2000_S2000x16_S1024x16_1_0_0_1_n_n.rhsIdx_val_of_single rfl j r
theorem rhsV_1 (j : S1024x16.Idx) (r : dot_S1024x2000_S2000x16_S1024x16_1_0_0_1_n_n.contr.Idx) :
    (dot_S1024x2000_S2000x16_S1024x16_1_0_0_1_n_n.rhsIdx j r 1).val = (j 1).val := by
  unfold DotDims.rhsIdx
  rw [dif_neg (show ¬(1 : Fin S2000x16.rank) ∈ dot_S1024x2000_S2000x16_S1024x16_1_0_0_1_n_n.rhsBatch by decide), dif_pos (show (1 : Fin S2000x16.rank) ∈ dot_S1024x2000_S2000x16_S1024x16_1_0_0_1_n_n.rhsNonContracting by decide)]
  rfl

/-! ## The layout operations and the two row reductions at an index -/

/-- The pattern of −∞. -/
theorem ofBits_neg_inf : Ideal.ofBits .f32 0xFF800000#32 = ⊥ := by simp [Ideal.ofBits, Ideal.ieee]

/-- A [1024] array cast to a [1024, 1] column reads, at row `b`, the operand at `b`. -/
theorem col_cast (x : FVec Ideal S1024 .f32) (b : Fin 1024) :
    shapeCast S1024x1 x shapeCasts_S1024_S1024x1 (ix2 b (0 : Fin 1)) = x (ix1 b) :=
  shapeCast_apply x shapeCasts_S1024_S1024x1 _ _ (by
    rw [Shape.rowMajor_val_two, Shape.rowMajor_val_one]
    show b.val = b.val * 1 + 0
    omega)

/-- A [1024, 1] column broadcast along 2000 columns reads, at `(b, i)`, the column's entry of row `b`. -/
theorem bcast_2000 (x : FVec Ideal S1024x1 .f32) (b : Fin 1024) (i : Fin 2000) :
    broadcastTo S1024x2000 x broadcasts_S1024x1_S1024x2000 (ix2 b i) = x (ix2 b (0 : Fin 1)) := by
  refine broadcastTo_apply x broadcasts_S1024x1_S1024x2000 (ix2 b i) (ix2 b (0 : Fin 1)) fun ax => ?_
  match ax with
  | ⟨0, _⟩ => show b.val = if (1024 : Nat) = 1 then 0 else b.val; rw [if_neg (by decide)]
  | ⟨1, _⟩ => show (0 : Nat) = if (1 : Nat) = 1 then 0 else i.val; rw [if_pos rfl]

/-- A [1024, 1] column broadcast along 16 columns reads, at `(b, c)`, the column's entry of row `b`. -/
theorem bcast_16 (x : FVec Ideal S1024x1 .f32) (b : Fin 1024) (c : Fin 16) :
    broadcastTo S1024x16 x broadcasts_S1024x1_S1024x16 (ix2 b c) = x (ix2 b (0 : Fin 1)) := by
  refine broadcastTo_apply x broadcasts_S1024x1_S1024x16 (ix2 b c) (ix2 b (0 : Fin 1)) fun ax => ?_
  match ax with
  | ⟨0, _⟩ => show b.val = if (1024 : Nat) = 1 then 0 else b.val; rw [if_neg (by decide)]
  | ⟨1, _⟩ => show (0 : Nat) = if (1 : Nat) = 1 then 0 else c.val; rw [if_pos rfl]

/-- The reduced index `b` of a [1024, 2000] array with column `i` put back is `(b, i)`. -/
theorem lift_row (h : S1024x2000.Reduces [1] S1024) (b : Fin 1024) (i : Fin (S1024x2000.size 1)) :
    h.lift (ix1 b) i = ix2 b (⟨i.val, i.isLt⟩ : Fin 2000) := by
  funext a; apply Fin.ext
  fin_cases a <;> rfl

/-- A row's maximum: the fold of `max` from −∞ over the row's 2000 entries. -/
theorem rowmax_apply (x : FVec Ideal S1024x2000 .f32) (b : Fin 1024) :
    multiReduction .maximumf [1] S1024 x 0xFF800000#32 reduces_S1024x2000_S1024 (.inl rfl) rfl (ix1 b)
      = (Finset.univ : Finset (Fin 2000)).fold max ⊥ (fun i => x (ix2 b i)) := by
  refine (Ideal.multiReduction_maximumf_single x 0xFF800000#32 reduces_S1024x2000_S1024 (.inl rfl) rfl (ix1 b)).trans ?_
  show (Finset.univ : Finset (Fin 2000)).fold max (Ideal.ofBits .f32 0xFF800000#32) _ = _
  rw [ofBits_neg_inf]
  exact congrArg (fun f => (Finset.univ : Finset (Fin 2000)).fold max ⊥ f)
    (funext fun i => congrArg x (lift_row reduces_S1024x2000_S1024 b i))

/-- A row's sum over its 2000 entries (from zero). -/
theorem rowsum_apply (x : FVec Ideal S1024x2000 .f32) (b : Fin 1024) :
    multiReduction .add [1] S1024 x 0x00000000#32 reduces_S1024x2000_S1024 (.inl rfl) rfl (ix1 b)
      = ∑ i : Fin 2000, x (ix2 b i) := by
  refine (Ideal.multiReduction_add_single x 0x00000000#32 reduces_S1024x2000_S1024 (.inl rfl) rfl (ix1 b)).trans ?_
  exact Finset.sum_congr rfl fun i _ => congrArg x (lift_row reduces_S1024x2000_S1024 b i)

/-! ## The payloads -/

/-- The block similarity of query row `b` and the block's key row `i`. -/
def bsim (q : FVec Ideal S1024x16 .f32) (k : FVec Ideal S2000x16 .f32) (b : Fin 1024) (i : Fin 2000) : EReal :=
  ∑ d : Fin 16, q (ix2 b d) * k (ix2 i d)

theorem pay6_apply (q : FVec Ideal S1024x16 .f32) (k : FVec Ideal S2000x16 .f32) (b : Fin 1024) (i : Fin 2000) :
    k0_pay6 (F := Ideal) q k (ix2 b i) = bsim q k b i := by
  unfold k0_pay6 bsim
  simp only [matmul]
  rw [Ideal.matmul_constant_zero_apply, ← Equiv.sum_comp (contrEquiv1 dot_S1024x16_S2000x16_S1024x2000_1_1_0_0_n_n 16 rfl rfl).symm]
  refine Finset.sum_congr rfl fun d _ => ?_
  have hk := contrEquiv1_symm_val dot_S1024x16_S2000x16_S1024x2000_1_1_0_0_n_n 16 rfl rfl d
  have el : dot_S1024x16_S2000x16_S1024x2000_1_1_0_0_n_n.lhsIdx (ix2 b i) ((contrEquiv1 dot_S1024x16_S2000x16_S1024x2000_1_1_0_0_n_n 16 rfl rfl).symm d) = ix2 b d := funext fun a => Fin.ext (by
    match a with
    | ⟨0, _⟩ => exact lhsS_0 _ _
    | ⟨1, _⟩ => exact (lhsS_1 _ _).trans hk)
  have er : dot_S1024x16_S2000x16_S1024x2000_1_1_0_0_n_n.rhsIdx (ix2 b i) ((contrEquiv1 dot_S1024x16_S2000x16_S1024x2000_1_1_0_0_n_n 16 rfl rfl).symm d) = ix2 i d := funext fun a => Fin.ext (by
    match a with
    | ⟨0, _⟩ => exact rhsS_0 _ _
    | ⟨1, _⟩ => exact (rhsS_1 _ _).trans hk)
  rw [el, er]

/-- The new running maximum of row `b`. -/
theorem pay7_apply (q : FVec Ideal S1024x16 .f32) (k : FVec Ideal S2000x16 .f32) (m6 : FVec Ideal S1024x1 .f32) (b : Fin 1024) :
    k0_pay7 (F := Ideal) q k m6 (ix2 b (0 : Fin 1))
      = max (m6 (ix2 b (0 : Fin 1))) ((Finset.univ : Finset (Fin 2000)).fold max ⊥ (fun i => bsim q k b i)) := by
  unfold k0_pay7
  rw [maximumf_apply, col_cast, rowmax_apply]
  simp only [pay6_apply]

/-- The rescaling factor of row `b`. -/
theorem pay8_apply (q : FVec Ideal S1024x16 .f32) (k : FVec Ideal S2000x16 .f32) (m6 : FVec Ideal S1024x1 .f32) (b : Fin 1024) :
    k0_pay8 (F := Ideal) q k m6 (ix2 b (0 : Fin 1))
      = Ideal.exp (m6 (ix2 b (0 : Fin 1)) - k0_pay7 (F := Ideal) q k m6 (ix2 b (0 : Fin 1))) := rfl

/-- The block's exponentials. -/
theorem pay9_apply (q : FVec Ideal S1024x16 .f32) (k : FVec Ideal S2000x16 .f32) (m6 : FVec Ideal S1024x1 .f32) (b : Fin 1024) (i : Fin 2000) :
    k0_pay9 (F := Ideal) q k m6 (ix2 b i)
      = Ideal.exp (bsim q k b i - k0_pay7 (F := Ideal) q k m6 (ix2 b (0 : Fin 1))) := by
  unfold k0_pay9
  show Ideal.exp (k0_pay6 (F := Ideal) q k (ix2 b i) - broadcastTo S1024x2000 (k0_pay7 (F := Ideal) q k m6) broadcasts_S1024x1_S1024x2000 (ix2 b i)) = _
  rw [bcast_2000, pay6_apply]

/-- What the step stores as the running maximum is the new maximum. -/
theorem pay10_eq (q : FVec Ideal S1024x16 .f32) (k : FVec Ideal S2000x16 .f32) (m6 : FVec Ideal S1024x1 .f32) :
    k0_pay10 (F := Ideal) q k m6 = k0_pay7 (F := Ideal) q k m6 := by
  unfold k0_pay10
  exact shapeCast_self _ _

/-- The new denominator of row `b`. -/
theorem pay11_apply (q : FVec Ideal S1024x16 .f32) (k : FVec Ideal S2000x16 .f32) (m6 l : FVec Ideal S1024x1 .f32) (b : Fin 1024) :
    k0_pay11 (F := Ideal) q k m6 l (ix2 b (0 : Fin 1))
      = l (ix2 b (0 : Fin 1)) * k0_pay8 (F := Ideal) q k m6 (ix2 b (0 : Fin 1)) + ∑ i : Fin 2000, k0_pay9 (F := Ideal) q k m6 (ix2 b i) := by
  unfold k0_pay11
  rw [shapeCast_self, addf_apply, mulf_apply, col_cast, rowsum_apply]

/-- The new numerator at row `b`, column `c`. -/
theorem pay12_apply (q : FVec Ideal S1024x16 .f32) (k : FVec Ideal S2000x16 .f32) (m6 : FVec Ideal S1024x1 .f32)
    (acc : FVec Ideal S1024x16 .f32) (v : FVec Ideal S2000x16 .f32) (b : Fin 1024) (c : Fin 16) :
    k0_pay12 (F := Ideal) q k m6 acc v (ix2 b c)
      = acc (ix2 b c) * k0_pay8 (F := Ideal) q k m6 (ix2 b (0 : Fin 1)) + ∑ i : Fin 2000, k0_pay9 (F := Ideal) q k m6 (ix2 b i) * v (ix2 i c) := by
  unfold k0_pay12
  rw [addf_apply, mulf_apply, bcast_16]
  congr 1
  simp only [matmul]
  rw [Ideal.matmul_constant_zero_apply, ← Equiv.sum_comp (contrEquiv1 dot_S1024x2000_S2000x16_S1024x16_1_0_0_1_n_n 2000 rfl rfl).symm]
  refine Finset.sum_congr rfl fun i _ => ?_
  have hk := contrEquiv1_symm_val dot_S1024x2000_S2000x16_S1024x16_1_0_0_1_n_n 2000 rfl rfl i
  have el : dot_S1024x2000_S2000x16_S1024x16_1_0_0_1_n_n.lhsIdx (ix2 b c) ((contrEquiv1 dot_S1024x2000_S2000x16_S1024x16_1_0_0_1_n_n 2000 rfl rfl).symm i) = ix2 b i := funext fun a => Fin.ext (by
    match a with
    | ⟨0, _⟩ => exact lhsV_0 _ _
    | ⟨1, _⟩ => exact (lhsV_1 _ _).trans hk)
  have er : dot_S1024x2000_S2000x16_S1024x16_1_0_0_1_n_n.rhsIdx (ix2 b c) ((contrEquiv1 dot_S1024x2000_S2000x16_S1024x16_1_0_0_1_n_n 2000 rfl rfl).symm i) = ix2 i c := funext fun a => Fin.ext (by
    match a with
    | ⟨0, _⟩ => exact (rhsV_0 _ _).trans hk
    | ⟨1, _⟩ => exact rhsV_1 _ _)
  rw [el, er]

/-- What the step stores as the numerator is the new numerator. -/
theorem pay1_eq (x : FVec Ideal S1024x16 .f32) : k0_pay1 (F := Ideal) x = x := by
  unfold k0_pay1
  exact shapeCast_self _ _

/-- The output at row `b`, column `c`: numerator over denominator. -/
theorem pay2_apply (a : FVec Ideal S1024x16 .f32) (l : FVec Ideal S1024x1 .f32) (b : Fin 1024) (c : Fin 16) :
    k0_pay2 (F := Ideal) a l (ix2 b c) = Ideal.div (a (ix2 b c)) (l (ix2 b (0 : Fin 1))) := by
  unfold k0_pay2
  rw [divf_apply, bcast_16]

/-- The seed of the running maximum: the float −1e30 in every row. -/
theorem pay3_apply (i : S1024x1.Idx) : k0_pay3 (F := Ideal) i = Ideal.ofBits .f32 0xF149F2CA#32 := by
  unfold k0_pay3
  rw [shapeCast_self]
  rfl

/-- The seed of the denominator: zero. -/
theorem pay4_apply (i : S1024x1.Idx) : k0_pay4 (F := Ideal) i = 0 := by
  unfold k0_pay4
  rw [shapeCast_self]
  exact Ideal.ofBits_zero_f32

/-- The seed of the numerator: zero. -/
theorem pay5_apply (i : S1024x16.Idx) : k0_pay5 (F := Ideal) i = 0 := by
  unfold k0_pay5
  rw [shapeCast_self]
  exact Ideal.ofBits_zero_f32

end Cert.KernelIdeal.KV
end
-- ==== Proof.Spec.lean ====
import Idealize.ShloMosaic.PureOps.Ideal
import Idealize.ShloMosaic.Lib.ValueIdx

/-!
  The quantities both programs are read in, over the three argument arrays
  `q : [1024, 16]` (queries), `k : [100000, 16]` (keys), `v : [100000, 16]` (values), at the ideal values
  (extended reals):

  * `sim q k b j = ∑ d, q[b, d] · k[j, d]` — the similarity of query row `b` and memory slot `j`;
  * their real parts `Sr`, `Wr`, indexed by a natural slot number (zero past the last slot) so that a running
    sum over the first `n` slots is a sum over `Finset.range n`;
  * when every entry is a real number, `sim` and the value entries are the coercions of those real parts.
-/

noncomputable section

namespace Cert.Spec

open Idealize.ShloMosaic Idealize.ShloMosaic.ValueIdx

/-- An array of extended reals over a two-axis shape with literal extents. -/
abbrev Arr2 (n0 n1 : Nat) : Type := (⟨2, ![n0, n1]⟩ : Shape).Idx → EReal

/-- The similarity of query row `b` and memory slot `j`: the dot product of the two rows. -/
def sim (q : Arr2 1024 16) (k : Arr2 100000 16) (b : Fin 1024) (j : Fin 100000) : EReal :=
  ∑ d : Fin 16, q (ix2 b d) * k (ix2 j d)

/-- The real part of the similarity, by slot NUMBER (zero past the last slot). -/
def Sr (q : Arr2 1024 16) (k : Arr2 100000 16) (b : Fin 1024) (j : ℕ) : ℝ :=
  if h : j < 100000 then ∑ d : Fin 16, (q (ix2 b d)).toReal * (k (ix2 (⟨j, h⟩ : Fin 100000) d)).toReal else 0

/-- The real part of value column `c`, by slot number (zero past the last slot). -/
def Wr (v : Arr2 100000 16) (c : Fin 16) (j : ℕ) : ℝ :=
  if h : j < 100000 then (v (ix2 (⟨j, h⟩ : Fin 100000) c)).toReal else 0

/-- A finite sum of coerced reals is the coercion of the sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- With real entries the similarity is the coercion of its real part. -/
theorem sim_real (q : Arr2 1024 16) (k : Arr2 100000 16) (hq : ∀ i, q i = (((q i).toReal : ℝ) : EReal))
    (hk : ∀ i, k i = (((k i).toReal : ℝ) : EReal)) (b : Fin 1024) (j : Fin 100000) :
    sim q k b j = ((Sr q k b j.val : ℝ) : EReal) := by
  unfold sim Sr
  rw [dif_pos j.isLt, coe_sum]
  refine Finset.sum_congr rfl fun d _ => ?_
  rw [EReal.coe_mul, ← hq, ← hk]

/-- With real entries a value entry is the coercion of its real part. -/
theorem val_real (v : Arr2 100000 16) (hv : ∀ i, v i = (((v i).toReal : ℝ) : EReal)) (c : Fin 16) (j : Fin 100000) :
    v (ix2 j c) = ((Wr v c j.val : ℝ) : EReal) := by
  unfold Wr
  rw [dif_pos j.isLt]
  exact hv _

end Cert.Spec

end
-- ==== Proof.SoftmaxAlgebra.lean ====
import Idealize.ShloMosaic.PureOps.Ideal

/-!
  The algebra of a softmax readout computed in one pass, on the reals and on the extended reals.

  For scores `S j` and values `W j` over memory slots `j`, the readout over the first `n` slots is
  `attn S W n = (∑_{j<n} exp (S j) · W j) / ∑_{j<n} exp (S j)`. Shifting every score by one real `μ` multiplies numerator
  and denominator by `exp (−μ)`, so `(∑ exp (S j − μ) · W j) / ∑ exp (S j − μ)` is the same number for every `μ`.

  * The one-pass form keeps a running shift `μ` (a maximum so far), the denominator `∑ exp (S j − μ)` and the numerator
    `∑ exp (S j − μ) · W j` over the slots seen (`RowInv`); a block of new slots moves the shift to `μ' ≥ μ`, rescales
    both sums by `exp (μ − μ')` (`exp (S j − μ) · exp (μ − μ') = exp (S j − μ')`) and adds the block's terms
    (`rowInv_step`); at the end numerator over denominator is `attn` (`rowInv_final`).
  * The two-pass form shifts by the overall maximum `M`, normalizes each weight `exp (S j − M)` by their sum and sums the
    weighted values: also `attn` (`ref_row`).

  The extended-real operations involved (`Ideal.exp`, `Ideal.div`, `max`, `+`, `·`) act on coercions of reals as the
  real operations do; a fold of `max` from `⊥` over finitely many reals (at least one) is a real.
-/

noncomputable section

namespace Cert.Softmax

open Finset Idealize.ShloMosaic

/-- The attention readout of one row against one value column over the first `n` memory slots:
    the `exp`-weighted mean of `W` with weights `exp (S j)`. -/
def attn (S W : ℕ → ℝ) (n : ℕ) : ℝ :=
  (∑ j ∈ range n, Real.exp (S j) * W j) / ∑ j ∈ range n, Real.exp (S j)

/-- The running state (max, denominator, numerator) of the one-pass softmax after `n` slots: some finite shift `μ`,
    the sums of `exp (S j - μ)` and of `exp (S j - μ) * W j` over the slots seen so far. -/
def RowInv (S W : ℕ → ℝ) (n : ℕ) (mm ll a : EReal) : Prop :=
  ∃ μ : ℝ, mm = (μ : EReal) ∧ ll = ((∑ j ∈ range n, Real.exp (S j - μ) : ℝ) : EReal)
    ∧ a = ((∑ j ∈ range n, Real.exp (S j - μ) * W j : ℝ) : EReal)

/-- The coercion `ℝ → EReal` commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of a nonempty finite family of finite reals (folded from `⊥`) is a finite real:
    it dominates the first member, hence is not `⊥`, and every member is below `⊤`. -/
theorem fold_max_coe {k : ℕ} (hk : 0 < k) (σ : Fin k → EReal) (s : Fin k → ℝ)
    (hσ : ∀ i : Fin k, σ i = ((s i : ℝ) : EReal)) :
    ∃ M : ℝ, (Finset.univ : Finset (Fin k)).fold max ⊥ σ = (M : EReal) := by
  have hbot : (Finset.univ : Finset (Fin k)).fold max ⊥ σ ≠ ⊥ := by
    have h1 : σ ⟨0, hk⟩ ≤ (Finset.univ : Finset (Fin k)).fold max ⊥ σ :=
      (Finset.le_fold_max _).2 (Or.inr ⟨⟨0, hk⟩, Finset.mem_univ _, le_rfl⟩)
    intro h0
    rw [h0, hσ] at h1
    exact absurd h1 (not_le.2 (EReal.bot_lt_coe _))
  have htop : (Finset.univ : Finset (Fin k)).fold max ⊥ σ ≠ ⊤ := by
    have h1 : (Finset.univ : Finset (Fin k)).fold max ⊥ σ < ⊤ :=
      (Finset.fold_max_lt _).2 ⟨bot_lt_top, fun i _ => by rw [hσ i]; exact EReal.coe_lt_top _⟩
    exact h1.ne
  lift (Finset.univ : Finset (Fin k)).fold max ⊥ σ to ℝ using ⟨htop, hbot⟩ with M
  exact ⟨M, rfl⟩

/-- Shifting every score by the same real `μ` does not change the weighted mean. -/
theorem shift_attn (S W : ℕ → ℝ) (n : ℕ) (μ : ℝ) :
    (∑ j ∈ range n, Real.exp (S j - μ) * W j) / (∑ j ∈ range n, Real.exp (S j - μ)) = attn S W n := by
  have hA : ∑ j ∈ range n, Real.exp (S j - μ) * W j
      = Real.exp (-μ) * ∑ j ∈ range n, Real.exp (S j) * W j := by
    rw [Finset.mul_sum]
    apply Finset.sum_congr rfl
    intro j _
    rw [sub_eq_add_neg, Real.exp_add]; ring
  have hB : ∑ j ∈ range n, Real.exp (S j - μ) = Real.exp (-μ) * ∑ j ∈ range n, Real.exp (S j) := by
    rw [Finset.mul_sum]
    apply Finset.sum_congr rfl
    intro j _
    rw [sub_eq_add_neg, Real.exp_add]; ring
  rw [hA, hB, attn, mul_div_mul_left _ _ (Real.exp_pos _).ne']

/-- A nonempty sum of exponentials is positive. -/
theorem sum_exp_pos (S : ℕ → ℝ) (n : ℕ) (hn : 0 < n) (μ : ℝ) :
    0 < ∑ j ∈ range n, Real.exp (S j - μ) :=
  Finset.sum_pos (fun j _ => Real.exp_pos _) ⟨0, Finset.mem_range.2 hn⟩

theorem rowInv_init (S W : ℕ → ℝ) (μ0 : ℝ) : RowInv S W 0 (μ0 : EReal) 0 0 := by
  refine ⟨μ0, rfl, ?_, ?_⟩ <;> simp

theorem rowInv_step (S W : ℕ → ℝ) (n k : ℕ) (hk : 0 < k) (mm ll a : EReal) (h : RowInv S W n mm ll a)
    (σ ω : Fin k → EReal) (hσ : ∀ i : Fin k, σ i = ((S (n + i.val) : ℝ) : EReal))
    (hω : ∀ i : Fin k, ω i = ((W (n + i.val) : ℝ) : EReal)) (mnew : EReal)
    (hm : mnew = max mm ((Finset.univ : Finset (Fin k)).fold max ⊥ σ)) :
    RowInv S W (n + k) mnew (ll * Ideal.exp (mm - mnew) + ∑ i : Fin k, Ideal.exp (σ i - mnew))
      (a * Ideal.exp (mm - mnew) + ∑ i : Fin k, Ideal.exp (σ i - mnew) * ω i) := by
  obtain ⟨μ, rfl, rfl, rfl⟩ := h
  obtain ⟨M, hM⟩ := fold_max_coe hk σ (fun i => S (n + i.val)) hσ
  have hm' : mnew = ((max μ M : ℝ) : EReal) := by
    rw [hm, hM]; exact (EReal.coe_strictMono.monotone.map_max).symm
  -- every new term is the coercion of a real exponential
  have hexp : ∀ i : Fin k, Ideal.exp (σ i - ((max μ M : ℝ) : EReal))
      = ((Real.exp (S (n + i.val) - max μ M) : ℝ) : EReal) := by
    intro i
    rw [hσ i, ← EReal.coe_sub, Ideal.exp_coe]
  -- rescaling an old term from shift `μ` to the new shift
  have hresc : ∀ j : ℕ, Real.exp (S j - μ) * Real.exp (μ - max μ M) = Real.exp (S j - max μ M) := by
    intro j
    rw [← Real.exp_add]; congr 1; ring
  refine ⟨max μ M, hm', ?_, ?_⟩
  · rw [hm']
    simp only [hexp]
    rw [← EReal.coe_sub, Ideal.exp_coe, ← EReal.coe_mul, ← coe_sum, ← EReal.coe_add]
    congr 1
    rw [Finset.sum_range_add, Finset.sum_mul,
      Fin.sum_univ_eq_sum_range (fun i => Real.exp (S (n + i) - max μ M))]
    congr 1
    exact Finset.sum_congr rfl (fun j _ => hresc j)
  · rw [hm']
    simp only [hexp, hω, ← EReal.coe_mul]
    rw [← EReal.coe_sub, Ideal.exp_coe, ← EReal.coe_mul, ← coe_sum, ← EReal.coe_add]
    congr 1
    rw [Finset.sum_range_add, Finset.sum_mul,
      Fin.sum_univ_eq_sum_range (fun i => Real.exp (S (n + i) - max μ M) * W (n + i))]
    congr 1
    apply Finset.sum_congr rfl
    intro j _
    rw [mul_right_comm, hresc j]

theorem rowInv_final (S W : ℕ → ℝ) (n : ℕ) (hn : 0 < n) (mm ll a : EReal) (h : RowInv S W n mm ll a) :
    Ideal.div a ll = ((attn S W n : ℝ) : EReal) := by
  obtain ⟨μ, rfl, rfl, rfl⟩ := h
  rw [Ideal.div_coe (sum_exp_pos S n hn μ).ne', ← EReal.coe_mul, ← shift_attn S W n μ]
  congr 1
  rw [mul_one_div]

theorem ref_row (S W : ℕ → ℝ) (N : ℕ) (hN : 0 < N) (σ ω : Fin N → EReal)
    (hσ : ∀ j : Fin N, σ j = ((S j.val : ℝ) : EReal)) (hω : ∀ j : Fin N, ω j = ((W j.val : ℝ) : EReal))
    (mx : EReal) (hmx : mx = max ⊥ ((Finset.univ : Finset (Fin N)).fold max ⊥ σ)) :
    ∑ j : Fin N, Ideal.div (Ideal.exp (σ j - mx)) (0 + ∑ j' : Fin N, Ideal.exp (σ j' - mx)) * ω j
      = ((attn S W N : ℝ) : EReal) := by
  obtain ⟨M, hM⟩ := fold_max_coe hN σ (fun j => S j.val) hσ
  have hmx' : mx = (M : EReal) := by rw [hmx, hM, bot_sup_eq]
  have hexp : ∀ j : Fin N, Ideal.exp (σ j - (M : EReal)) = ((Real.exp (S j.val - M) : ℝ) : EReal) := by
    intro j
    rw [hσ j, ← EReal.coe_sub, Ideal.exp_coe]
  have hZ : (0 : EReal) + ∑ j' : Fin N, Ideal.exp (σ j' - (M : EReal))
      = ((∑ j ∈ range N, Real.exp (S j - M) : ℝ) : EReal) := by
    simp only [hexp]
    rw [zero_add, ← coe_sum, Fin.sum_univ_eq_sum_range (fun j => Real.exp (S j - M))]
  rw [hmx', hZ]
  simp only [hexp, hω, Ideal.div_coe (sum_exp_pos S N hN M).ne', ← EReal.coe_mul]
  rw [← coe_sum, ← shift_attn S W N M]
  congr 1
  rw [Fin.sum_univ_eq_sum_range
    (fun j => Real.exp (S j - M) * (1 / ∑ j ∈ range N, Real.exp (S j - M)) * W j), Finset.sum_div]
  apply Finset.sum_congr rfl
  intro j _
  rw [mul_one_div, div_mul_eq_mul_div]

end Cert.Softmax

end
-- ==== Proof.KInvariant.lean ====
import proofs.«175973_g19181323944180_cont_8to1_1754_2_alg».proof.Proof.KPieces
import proofs.«175973_g19181323944180_cont_8to1_1754_2_alg».proof.Proof.KPayload
import proofs.«175973_g19181323944180_cont_8to1_1754_2_alg».proof.Proof.Spec
import proofs.«175973_g19181323944180_cont_8to1_1754_2_alg».proof.Proof.SoftmaxAlgebra

/-!
  The one-pass softmax invariant, carried over the grid's 50 points (at the ideal values).

  Point `t` sees memory slots `2000·t … 2000·t + 1999` (its key block and value block are those rows of the key and
  value arrays; the query block is the whole query array at every point). With every input entry a real number,
  after point `t` the three carried buffers hold, at row `b` (and column `c` of the numerator), for SOME real shift
  `μ`: `μ`, `∑_{j < 2000(t+1)} exp (s b j − μ)` and `∑_{j < 2000(t+1)} exp (s b j − μ) · v[j, c]`, where
  `s b j = ∑ d, q[b, d] · k[j, d]` (`Cert.Softmax.RowInv`). The first point starts from the seed (the float −1e30, a
  real number; zero; zero), for which the invariant holds over no slots at all; every point then does one step of
  the recurrence (`Cert.Softmax.rowInv_step`), in which the old sums are rescaled by `exp (μ − μ')`.
-/

noncomputable section
open Idealize.ShloMosaic Idealize.ShloMosaic.TcCoe Idealize.ShloMosaic.ValueIdx Idealize.SL.Sem
namespace Cert.KernelIdeal.KV
open Cert.KernelIdeal Cert.KernelIdeal.Gen Cert.Spec Cert.Softmax

/-- The seed of the running maximum is a real number. -/
theorem seed_real : ∃ r : ℝ, Ideal.ofBits .f32 0xF149F2CA#32 = (r : EReal) := by
  refine ⟨-(13234890 * 2 ^ 76), ?_⟩
  simp [Ideal.ofBits, Ideal.ieee]

/-- ONE STEP at one row and column: if the carried entries satisfy the invariant over the first `n` slots and the
    point's key and value blocks are rows `n … n + 1999` of the key and value arrays, what the step stores satisfies
    it over the first `n + 2000` (`qb` is the query block, which is the whole query array). -/
theorem step_inv (q : FVec Ideal S1024x16 .f32) (karr varr : FVec Ideal S100000x16 .f32)
    (hq : ∀ i, q i = (((q i).toReal : ℝ) : EReal)) (hk : ∀ i, karr i = (((karr i).toReal : ℝ) : EReal))
    (hv : ∀ i, varr i = (((varr i).toReal : ℝ) : EReal))
    (n : ℕ) (hb : ∀ i : Fin 2000, n + i.val < 100000) (qb : FVec Ideal S1024x16 .f32) (hqb : qb = q) (kb vb : FVec Ideal S2000x16 .f32)
    (hkb : ∀ (i : Fin 2000) (d : Fin 16), kb (ix2 i d) = karr (ix2 (⟨n + i.val, hb i⟩ : Fin 100000) d))
    (hvb : ∀ (i : Fin 2000) (d : Fin 16), vb (ix2 i d) = varr (ix2 (⟨n + i.val, hb i⟩ : Fin 100000) d))
    (m6 l : FVec Ideal S1024x1 .f32) (acc : FVec Ideal S1024x16 .f32) (b : Fin 1024) (c : Fin 16)
    (h : RowInv (Sr q karr b) (Wr varr c) n (m6 (ix2 b (0 : Fin 1))) (l (ix2 b (0 : Fin 1))) (acc (ix2 b c))) :
    RowInv (Sr q karr b) (Wr varr c) (n + 2000) (k0_pay10 (F := Ideal) qb kb m6 (ix2 b (0 : Fin 1)))
      (k0_pay11 (F := Ideal) qb kb m6 l (ix2 b (0 : Fin 1))) (k0_pay1 (F := Ideal) (k0_pay12 (F := Ideal) qb kb m6 acc vb) (ix2 b c)) := by
  rw [hqb]
  have hσ : ∀ i : Fin 2000, bsim q kb b i = ((Sr q karr b (n + i.val) : ℝ) : EReal) := fun i => by
    unfold bsim
    simp only [hkb]
    exact sim_real q karr hq hk b (⟨n + i.val, hb i⟩ : Fin 100000)
  have hω : ∀ i : Fin 2000, vb (ix2 i c) = ((Wr varr c (n + i.val) : ℝ) : EReal) := fun i => by
    rw [hvb]
    exact val_real varr hv c (⟨n + i.val, hb i⟩ : Fin 100000)
  obtain ⟨mnew, hm⟩ : ∃ x : EReal, x = max (m6 (ix2 b (0 : Fin 1))) ((Finset.univ : Finset (Fin 2000)).fold max ⊥ (fun i => bsim q kb b i)) := ⟨_, rfl⟩
  have e7 : k0_pay7 (F := Ideal) q kb m6 (ix2 b (0 : Fin 1)) = mnew := by rw [pay7_apply, hm]
  have e10 : k0_pay10 (F := Ideal) q kb m6 (ix2 b (0 : Fin 1)) = mnew := by rw [pay10_eq, e7]
  have e8 : k0_pay8 (F := Ideal) q kb m6 (ix2 b (0 : Fin 1)) = Ideal.exp (m6 (ix2 b (0 : Fin 1)) - mnew) := by rw [pay8_apply, e7]
  have e9 : ∀ i : Fin 2000, k0_pay9 (F := Ideal) q kb m6 (ix2 b i) = Ideal.exp (bsim q kb b i - mnew) := fun i => by rw [pay9_apply, e7]
  have e11 : k0_pay11 (F := Ideal) q kb m6 l (ix2 b (0 : Fin 1))
      = l (ix2 b (0 : Fin 1)) * Ideal.exp (m6 (ix2 b (0 : Fin 1)) - mnew) + ∑ i : Fin 2000, Ideal.exp (bsim q kb b i - mnew) := by
    rw [pay11_apply, e8]
    exact congrArg _ (Finset.sum_congr rfl fun i _ => e9 i)
  have e12 : k0_pay1 (F := Ideal) (k0_pay12 (F := Ideal) q kb m6 acc vb) (ix2 b c)
      = acc (ix2 b c) * Ideal.exp (m6 (ix2 b (0 : Fin 1)) - mnew) + ∑ i : Fin 2000, Ideal.exp (bsim q kb b i - mnew) * vb (ix2 i c) := by
    rw [pay1_eq, pay12_apply, e8]
    exact congrArg _ (Finset.sum_congr rfl fun i _ => by rw [e9 i])
  rw [e10, e11, e12]
  exact rowInv_step (Sr q karr b) (Wr varr c) n 2000 (by decide) _ _ _ h (fun i => bsim q kb b i) (fun i => vb (ix2 i c)) hσ hω mnew hm

end Cert.KernelIdeal.KV
end
-- ==== Proof.Readout.lean ====
import proofs.«175973_g19181323944180_cont_8to1_1754_2_alg».proof.Proof.Spec
import proofs.«175973_g19181323944180_cont_8to1_1754_2_alg».proof.Proof.SoftmaxAlgebra

/-!
  The function both programs compute when every input entry is a real number: at row `b` and column `c`,

      readout q k v (b, c) = (∑_j exp (s b j) · v[j, c]) / (∑_j exp (s b j)),   s b j = ∑ d, q[b, d] · k[j, d],

  the softmax-weighted mean of value column `c` over all 100000 memory slots (`Cert.Softmax.attn` of the real
  parts), as an extended real.
-/

noncomputable section

namespace Cert.Spec

open Idealize.ShloMosaic Idealize.ShloMosaic.ValueIdx

/-- The attention readout of the three arrays' real parts. -/
def readout (q : Arr2 1024 16) (k v : Arr2 100000 16) : Arr2 1024 16 :=
  fun i => ((Cert.Softmax.attn (Sr q k (i 0)) (Wr v (i 1)) 100000 : ℝ) : EReal)

theorem readout_apply (q : Arr2 1024 16) (k v : Arr2 100000 16) (b : Fin 1024) (c : Fin 16) :
    readout q k v (ix2 b c) = ((Cert.Softmax.attn (Sr q k b) (Wr v c) 100000 : ℝ) : EReal) := rfl

end Cert.Spec

end
-- ==== Proof.KSweep.lean ====
import proofs.«175973_g19181323944180_cont_8to1_1754_2_alg».proof.Proof.KInvariant
import proofs.«175973_g19181323944180_cont_8to1_1754_2_alg».proof.Proof.Gen.KernelIdeal.Value
import proofs.«175973_g19181323944180_cont_8to1_1754_2_alg».proof.Proof.Readout

/-!
  The sweep over the grid: what the carried buffers hold after every point, and what the last point writes.

  The window's blocks are read off the argument arrays: the query window's block is the whole query array at
  every point; the key and value windows' blocks at point `t` are rows `2000·t … 2000·t + 1999`. By induction on
  the point — the first point's seed, then one step of the recurrence per point — the carried buffers satisfy
  the one-pass invariant over the first `2000·(t+1)` slots after point `t`. After the last point that is all
  100000 slots, and the output block the last point stores, numerator over denominator, is the attention
  readout of every row and column.
-/

noncomputable section
open Idealize.ShloMosaic Idealize.ShloMosaic.TcCoe Idealize.ShloMosaic.ValueIdx Idealize.SL.Sem
open Idealize.ShloMosaic.Pipeline (Dat)
namespace Cert.KernelIdeal.KV
open Cert.KernelIdeal Cert.KernelIdeal.Gen Cert.Spec Cert.Softmax

variable (m : (ℓ : Loc nD τ sig) → Buf (Elt Ideal) ℓ)

/-- The query, key and value arrays as the region finds them. -/
abbrev qarr (c : Dev nD) : FVec Ideal S1024x16 .f32 := V m c main_arg0
abbrev karr (c : Dev nD) : FVec Ideal S100000x16 .f32 := V m c main_arg1
abbrev varr (c : Dev nD) : FVec Ideal S100000x16 .f32 := V m c main_arg2
/-- The three input blocks of point `t`. -/
abbrev qblk (c : Dev nD) (t : Fin cfg0.N) : FVec Ideal S1024x16 .f32 := iblk m c 0 t
abbrev kblk (c : Dev nD) (t : Fin cfg0.N) : FVec Ideal S2000x16 .f32 := iblk m c 1 t
abbrev vblk (c : Dev nD) (t : Fin cfg0.N) : FVec Ideal S2000x16 .f32 := iblk m c 2 t

/-- The windows' block indices at point `t`: the query and output windows stay at block (0, 0); the key and value
    windows are at block (t, 0). -/
theorem idx_facts : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0 :=
  (by decide +kernel : ∀ t : Fin grid0.N, _)

theorem N50 : cfg0.N = 50 := N_0

/-- The query block is the query array. -/
theorem qblk_eq (c : Dev nD) (t : Fin cfg0.N) : qblk m c t = qarr m c := by
  have hi := idx_facts t
  funext j
  show iblk m c 0 t j = V m c main_arg0 j
  unfold iblk
  rw [View.read_apply]
  show V m c main_arg0 _ = V m c main_arg0 j
  congr 1
  funext a
  apply Fin.ext
  match a with
  | ⟨0, _⟩ => show win0_0.index t 0 * 1024 + 1 * (j 0).val = (j 0).val; rw [hi.1]; omega
  | ⟨1, _⟩ => show win0_0.index t 1 * 16 + 1 * (j 1).val = (j 1).val; rw [hi.2.1]; omega

/-- Row `i` of the key block of point `t` is row `2000·t + i` of the key array. -/
theorem kblk_apply (c : Dev nD) (t : Fin cfg0.N) (hb : ∀ i : Fin 2000, 2000 * t.val + i.val < 100000) (i : Fin 2000) (d : Fin 16) :
    kblk m c t (ix2 i d) = karr m c (ix2 (⟨2000 * t.val + i.val, hb i⟩ : Fin 100000) d) := by
  have hi := idx_facts t
  show iblk m c 1 t (ix2 i d) = V m c main_arg1 _
  unfold iblk
  rw [View.read_apply]
  show V m c main_arg1 _ = V m c main_arg1 _
  congr 1
  funext a
  apply Fin.ext
  match a with
  | ⟨0, _⟩ => show win0_1.index t 0 * 2000 + 1 * i.val = 2000 * t.val + i.val; rw [hi.2.2.1]; omega
  | ⟨1, _⟩ => show win0_1.index t 1 * 16 + 1 * d.val = d.val; rw [hi.2.2.2.1]; omega

/-- Row `i` of the value block of point `t` is row `2000·t + i` of the value array. -/
theorem vblk_apply (c : Dev nD) (t : Fin cfg0.N) (hb : ∀ i : Fin 2000, 2000 * t.val + i.val < 100000) (i : Fin 2000) (d : Fin 16) :
    vblk m c t (ix2 i d) = varr m c (ix2 (⟨2000 * t.val + i.val, hb i⟩ : Fin 100000) d) := by
  have hi := idx_facts t
  show iblk m c 2 t (ix2 i d) = V m c main_arg2 _
  unfold iblk
  rw [View.read_apply]
  show V m c main_arg2 _ = V m c main_arg2 _
  congr 1
  funext a
  apply Fin.ext
  match a with
  | ⟨0, _⟩ => show win0_2.index t 0 * 2000 + 1 * i.val = 2000 * t.val + i.val; rw [hi.2.2.2.2.1]; omega
  | ⟨1, _⟩ => show win0_2.index t 1 * 16 + 1 * d.val = d.val; rw [hi.2.2.2.2.2.1]; omega

/-! ## The induction over the grid -/

section Sweep

variable (c : Dev nD)
  (hq : ∀ i, qarr m c i = (((qarr m c i).toReal : ℝ) : EReal))
  (hk : ∀ i, karr m c i = (((karr m c i).toReal : ℝ) : EReal))
  (hv : ∀ i, varr m c i = (((varr m c i).toReal : ℝ) : EReal))
include hq hk hv

/-- What a point `t` after the first stores into the carried buffers satisfies the invariant over its slots too, given
    that the buffers satisfied it over the slots before when the point began. -/
theorem stored_inv (t : Fin cfg0.N) (ht : t.val ≠ 0) (m6 l : FVec Ideal S1024x1 .f32) (acc : FVec Ideal S1024x16 .f32)
    (b : Fin 1024) (c16 : Fin 16)
    (h : RowInv (Sr (qarr m c) (karr m c) b) (Wr (varr m c) c16) (2000 * (t.val - 1) + 2000) (m6 (ix2 b (0 : Fin 1))) (l (ix2 b (0 : Fin 1))) (acc (ix2 b c16))) :
    RowInv (Sr (qarr m c) (karr m c) b) (Wr (varr m c) c16) (2000 * t.val + 2000)
      (k0_pay10 (F := Ideal) (qblk m c t) (kblk m c t) m6 (ix2 b (0 : Fin 1)))
      (k0_pay11 (F := Ideal) (qblk m c t) (kblk m c t) m6 l (ix2 b (0 : Fin 1)))
      (k0_pay1 (F := Ideal) (k0_pay12 (F := Ideal) (qblk m c t) (kblk m c t) m6 acc (vblk m c t)) (ix2 b c16)) := by
  have hlt : t.val < 50 := lt_of_lt_of_eq t.isLt N50
  have e : 2000 * t.val = 2000 * (t.val - 1) + 2000 := by omega
  have hb : ∀ i : Fin 2000, 2000 * t.val + i.val < 100000 := fun i => by
    have := i.isLt; omega
  exact step_inv (qarr m c) (karr m c) (varr m c) hq hk hv (2000 * t.val) hb (qblk m c t) (qblk_eq m c _)
    (kblk m c t) (vblk m c t) (kblk_apply m c t hb) (vblk_apply m c t hb) m6 l acc b c16
    (by rw [e]; exact h)

/-- AFTER EVERY POINT `n` the carried buffers satisfy the one-pass invariant over the first `2000·(n+1)` slots. -/
theorem sweep : ∀ (n : ℕ) (hn : n < cfg0.N) (b : Fin 1024) (c16 : Fin 16),
    RowInv (Sr (qarr m c) (karr m c) b) (Wr (varr m c) c16) (2000 * n + 2000)
      ((outsAt0 m c n hn).2.1 (ix2 b (0 : Fin 1))) ((outsAt0 m c n hn).2.2.1 (ix2 b (0 : Fin 1))) ((outsAt0 m c n hn).2.2.2 (ix2 b c16))
  | 0, hn, b, c16 => by
    have hb : ∀ i : Fin 2000, 2000 * (⟨0, hn⟩ : Fin cfg0.N).val + i.val < 100000 := fun i => by
      have := i.isLt; dsimp only; omega
    rw [outsAt0_A m c ⟨0, hn⟩ rfl (by dsimp only; omega)]
    dsimp only
    rw [sout0_A_0_eq, sout0_A_1_eq, sout0_A_2_eq]
    exact step_inv (qarr m c) (karr m c) (varr m c) hq hk hv (2000 * 0) hb (qblk m c ⟨0, hn⟩) (qblk_eq m c _)
      (kblk m c ⟨0, hn⟩) (vblk m c ⟨0, hn⟩) (kblk_apply m c ⟨0, hn⟩ hb) (vblk_apply m c ⟨0, hn⟩ hb) k0_pay3 k0_pay4 k0_pay5 b c16
      (by
        rw [pay3_apply, pay4_apply, pay5_apply]
        obtain ⟨r, hr⟩ := seed_real
        rw [hr]
        exact rowInv_init _ _ r)
  | n + 1, hn, b, c16 => by
    have hlt : n + 1 < 50 := lt_of_lt_of_eq hn N50
    have ih := sweep n (Nat.lt_of_succ_lt hn) b c16
    have h0 : ¬(⟨n + 1, hn⟩ : Fin cfg0.N).val % 50 = 0 := by dsimp only; omega
    by_cases h1 : (⟨n + 1, hn⟩ : Fin cfg0.N).val % 50 = 49
    · rw [outsAt0_C m c ⟨n + 1, hn⟩ h0 h1]
      dsimp only
      rw [sout0_C_0_eq, sout0_C_1_eq, sout0_C_2_eq]
      exact stored_inv m c hq hk hv ⟨n + 1, hn⟩ (Nat.succ_ne_zero n) _ _ _ b c16 ih
    · rw [outsAt0_B m c ⟨n + 1, hn⟩ h0 h1]
      dsimp only
      rw [sout0_B_0_eq, sout0_B_1_eq, sout0_B_2_eq]
      exact stored_inv m c hq hk hv ⟨n + 1, hn⟩ (Nat.succ_ne_zero n) _ _ _ b c16 ih

end Sweep

end Cert.KernelIdeal.KV
end
-- ==== Proof.KFinal.lean ====
import proofs.«175973_g19181323944180_cont_8to1_1754_2_alg».proof.Proof.KSweep

/-!
  From the last point's block to the result array, and the kernel's run.

  The output window's one block is the whole [1024, 16] result array, written back once, after the last point
  (point 49). What that point stores is the attention readout (`last_out`), so the array ends holding it; the
  three argument arrays end as launched.
-/

noncomputable section
open Idealize.ShloMosaic Idealize.ShloMosaic.TcCoe Idealize.ShloMosaic.ValueIdx Idealize.SL.Sem
open Idealize.ShloMosaic.Pipeline (Dat)
namespace Cert.KernelIdeal.KV
open Cert.KernelIdeal Cert.KernelIdeal.Gen Cert.Spec Cert.Softmax

variable (m : (ℓ : Loc nD τ sig) → Buf (Elt Ideal) ℓ) (ρ : Dev nD → PrngReg)

/-- The last point of the grid. -/
abbrev tlast : Fin cfg0.N := ⟨49, by rw [N50]; decide⟩

section Final

variable (c : Dev nD)
  (hq : ∀ i, qarr m c i = (((qarr m c i).toReal : ℝ) : EReal))
  (hk : ∀ i, karr m c i = (((karr m c i).toReal : ℝ) : EReal))
  (hv : ∀ i, varr m c i = (((varr m c i).toReal : ℝ) : EReal))

/-- The attention readout of the three argument arrays. -/
abbrev result : FVec Ideal S1024x16 .f32 := readout (qarr m c) (karr m c) (varr m c)

/-- Every index of the result array lies in the block the last point writes back. -/
theorem covered (i : S1024x16.Idx) :
    ∃ t : Fin cfg0.N, (cfg0.win 3).flush t = true ∧ i ∈ ((cfg0.win 3).blk t).view.set :=
  ⟨tlast, (flush0_3 tlast).mpr rfl, by
    have hi := idx_facts tlast
    show i ∈ ((View.whole main_v0).slice (win0_3.rect tlast)).set
    rw [View.set_slice_whole, Rect.mem_set_unit]
    intro a
    have h0 : (i 0 : Nat) < 1024 := (i 0).isLt
    have h1 : (i 1 : Nat) < 16 := (i 1).isLt
    match a with
    | ⟨0, _⟩ =>
      show win0_3.index tlast 0 * win0_3.size 0 ≤ (i 0 : Nat) ∧ (i 0 : Nat) < win0_3.index tlast 0 * win0_3.size 0 + win0_3.xsize (grid0.coords tlast) 0
      rw [hi.2.2.2.2.2.2.1, show win0_3.xsize (grid0.coords tlast) 0 = 1024 from by decide +kernel]; omega
    | ⟨1, _⟩ =>
      show win0_3.index tlast 1 * win0_3.size 1 ≤ (i 1 : Nat) ∧ (i 1 : Nat) < win0_3.index tlast 1 * win0_3.size 1 + win0_3.xsize (grid0.coords tlast) 1
      rw [hi.2.2.2.2.2.2.2, show win0_3.xsize (grid0.coords tlast) 1 = 16 from by decide +kernel]; omega⟩

include hq hk hv

/-- WHAT THE LAST POINT STORES into the output block is the attention readout: the numerator it has just stored over
    the denominator it has just stored, both over all 100000 slots (the last point is the one with
    `t mod 50 = 49`, and `2000 · t + 2000 = 100000` there). -/
theorem last_out (t : Fin cfg0.N) (h1 : t.val % 50 = 49) : (outsAt0 m c t.val t.isLt).1 = result m c := by
  have hlt : t.val < 50 := lt_of_lt_of_eq t.isLt N50
  have h0 : ¬t.val % 50 = 0 := by omega
  have hpos : t.val ≠ 0 := by omega
  funext j
  obtain ⟨b, c16, rfl⟩ : ∃ (b : Fin 1024) (c16 : Fin 16), j = ix2 b c16 := ⟨j 0, j 1, eq_ix2 j⟩
  rw [outsAt0_C m c t h0 h1]
  dsimp only
  rw [out0_C_3_eq, pay2_apply]
  have hs := stored_inv m c hq hk hv t hpos _ _ _ b c16
    (sweep m c hq hk hv (t.val - 1) (Nat.lt_of_le_of_lt (Nat.sub_le _ _) t.isLt) b c16)
  have e : 2000 * t.val + 2000 = 100000 := by omega
  rw [e] at hs
  exact (rowInv_final _ _ 100000 (by decide) _ _ _ hs).trans (readout_apply _ _ _ b c16).symm

/-- The one write-back, after the last point, writes the attention readout: the output block at block index (0, 0)
    is the whole array. -/
theorem flushed_eq (t : Fin cfg0.N) (hf : (cfg0.win 3).flush t = true) :
    (dats m 0 c).flushed 3 t = ((cfg0.win 3).blk t).view.read (Elt Ideal) (result m c) := by
  have h1 : t.val % 50 = 49 := (flush0_3 t).mp hf
  have hi := idx_facts t
  rw [Cert.KernelIdeal.Value.flushed3, last_out m c hq hk hv t h1]
  have hz' : (fun a => win0_3.index t a * main_v0.ty.shape.size a) = fun _ => 0 := funext fun a => by
    match a with
    | ⟨0, _⟩ => show win0_3.index t 0 * _ = 0; rw [hi.2.2.2.2.2.2.1, Nat.zero_mul]
    | ⟨1, _⟩ => show win0_3.index t 1 * _ = 0; rw [hi.2.2.2.2.2.2.2, Nat.zero_mul]
  exact (Memref.read_access_unit_zero (Elt Ideal) main_v0 hz' (fun a => by rw [congrFun hz' a]; simp) (result m c)).symm

/-- So the result array ends holding the attention readout. -/
theorem final : (dats m 0 c).arrAt 3 cfg0.N = result m c :=
  (dats m 0 c).arrAt_eq_of_cover 3 (result m c) (flushed_eq m c hq hk hv) covered

end Final

/-- THE KERNEL'S RUN, READ: with every input entry a real number, every weakly fair execution terminates with the
    result array at the attention readout of the three argument arrays, which end unchanged. -/
theorem run (hfin : ∀ c : Dev nD, (∀ i, qarr m c i = (((qarr m c i).toReal : ℝ) : EReal))
      ∧ (∀ i, karr m c i = (((karr m c i).toReal : ℝ) : EReal)) ∧ (∀ i, varr m c i = (((varr m c i).toReal : ℝ) : EReal))) :
    θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c (hfin c).1 (hfin c).2.1 (hfin c).2.2), (h c).2⟩)
    (Cert.KernelIdeal.Value.run_blocks m ρ)

end Cert.KernelIdeal.KV
end
-- ==== Proof.RefValue.lean ====
import proofs.«175973_g19181323944180_cont_8to1_1754_2_alg».proof.Proof.Gen.ReferenceIdeal.Read
import proofs.«175973_g19181323944180_cont_8to1_1754_2_alg».proof.Proof.Spec
import Idealize.ShloMosaic.PureOps.Reduce
import Idealize.ShloMosaic.PureOps.Ideal.Laws
import Idealize.ShloMosaic.Lib.ValueIdx

/-!
  The reference program read at one element of its result.

  The reference computes `softmax(q · kᵀ) · v` row by row. For query row `b` and memory slot `j` write
  `s j = ∑ d, q[b, d] · k[j, d]` for the similarity and `m` for the row's maximum of the `s j` (folded from −∞ and
  compared with −∞ once more). The weights are `exp (s j − m)` divided by their sum over the row (taken from zero), and
  the result at `(b, c)` is the weights' sum against value column `c`. Each lemma below reads one intermediate array
  at an index in these terms; `ref_apply` assembles them.
-/

noncomputable section

namespace Cert.ReferenceIdeal.RefValue

open Cert.ReferenceIdeal Cert.ReferenceIdeal.Gen Idealize.ShloMosaic Idealize.ShloMosaic.ValueIdx

/-- The row maximum the reference subtracts: the fold of `max` from −∞ over the row's similarities (once more against −∞). -/
def rowMax (q : Cert.Spec.Arr2 1024 16) (k : Cert.Spec.Arr2 100000 16) (b : Fin 1024) : EReal :=
  max ⊥ ((Finset.univ : Finset (Fin 100000)).fold max ⊥ (fun j => Cert.Spec.sim q k b j))

/-- The single-precision pattern with sign bit set, all-ones exponent and zero fraction denotes −∞. -/
theorem negInf : Ideal.ofBits .f32 0xFF800000#32 = (⊥ : EReal) := by simp [Ideal.ofBits, Ideal.ieee]

/-- Row `b` of the reduced array with column `j` put back is the element `(b, j)`. -/
theorem lift_row (h : S1024x100000.Reduces [1] S1024) (b : Fin 1024) (j : Fin 100000) :
    h.lift (ix1 b) j = ix2 b j := by
  funext c; apply Fin.ext
  match c with
  | ⟨0, _⟩ => rfl
  | ⟨1, _⟩ => rfl

/-- The product `q · kᵀ` at `(b, j)` is the similarity of query row `b` and memory slot `j`. -/
theorem sim_apply (q : Cert.Spec.Arr2 1024 16) (k : Cert.Spec.Arr2 100000 16) (b : Fin 1024) (j : Fin 100000) :
    Read.val_main_v1 (F := Ideal) q k (ix2 b j) = Cert.Spec.sim q k b j := by
  rw [Read.val_main_v1_apply]
  unfold Cert.Spec.sim
  refine Finset.sum_congr rfl fun d _ => ?_
  rw [Read.val_main_v0_apply]
  have e1 : Read.lidx_main_v1 (ix2 b j) d = ix2 b d :=
    funext fun a => by match a with | ⟨0, _⟩ => rfl | ⟨1, _⟩ => rfl
  have e2 : Read.idx_main_v0 (Read.ridx_main_v1 (ix2 b j) d) = ix2 j d :=
    funext fun a => by match a with | ⟨0, _⟩ => rfl | ⟨1, _⟩ => rfl
  rw [e1, e2]

/-- The maximum over the row, folded from −∞. -/
theorem max_row (q : Cert.Spec.Arr2 1024 16) (k : Cert.Spec.Arr2 100000 16) (b : Fin 1024) :
    Read.val_main_v2 (F := Ideal) q k (ix1 b)
      = (Finset.univ : Finset (Fin 100000)).fold max ⊥ (fun j => Cert.Spec.sim q k b j) := by
  have h : S1024x100000.Reduces [1] S1024 := by decide
  unfold Read.val_main_v2
  rw [Host.reduce_eq_fold_single FloatOps.maximumf _ _ reducesTo_S1024x100000_S1024_d1 h h_S_,
    Read.val_main_cst_apply, Ideal.ofBits_def, negInf]
  have hf : (Read.val_main_v1 (F := Ideal) q k ∘ h.lift (ix1 b)) = fun j : Fin 100000 => Cert.Spec.sim q k b j :=
    funext fun j => (congrArg (Read.val_main_v1 (F := Ideal) q k) (lift_row h b j)).trans (sim_apply q k b j)
  exact congrArg (fun f => Finset.fold max ⊥ f (Finset.univ : Finset (Fin 100000))) hf

/-- The maximum the reference subtracts from row `b`. -/
theorem rowMax_apply (q : Cert.Spec.Arr2 1024 16) (k : Cert.Spec.Arr2 100000 16) (b : Fin 1024) :
    Read.val_main_v4 (F := Ideal) q k (ix1 b) = rowMax q k b := by
  rw [Read.val_main_v4_apply, Read.val_main_v3_apply, Read.val_main_cst_0_apply, Ideal.maximumf_def,
    Ideal.ofBits_def, negInf, max_row]
  rfl

/-- The shifted similarity at `(b, j)`. -/
theorem shifted_apply (q : Cert.Spec.Arr2 1024 16) (k : Cert.Spec.Arr2 100000 16) (b : Fin 1024) (j : Fin 100000) :
    Read.val_main_v7 (F := Ideal) q k (ix2 b j) = Cert.Spec.sim q k b j - rowMax q k b := by
  have e : Read.idx_main_v5 (Read.idx_main_v6 (ix2 b j)) = ix1 b :=
    funext fun a => by match a with | ⟨0, _⟩ => rfl
  rw [Read.val_main_v7_apply, Read.val_main_v6_apply, Read.val_main_v5_apply, Ideal.subf_def, sim_apply, e,
    rowMax_apply]

/-- Its exponential. -/
theorem exp_apply (q : Cert.Spec.Arr2 1024 16) (k : Cert.Spec.Arr2 100000 16) (b : Fin 1024) (j : Fin 100000) :
    Read.val_main_v8 (F := Ideal) q k (ix2 b j) = Ideal.exp (Cert.Spec.sim q k b j - rowMax q k b) := by
  rw [Read.val_main_v8_apply, Ideal.hostUnary_exp_def, shifted_apply]

/-- The row's sum of those exponentials, taken from zero. -/
theorem denom_apply (q : Cert.Spec.Arr2 1024 16) (k : Cert.Spec.Arr2 100000 16) (b : Fin 1024) :
    Read.val_main_v9 (F := Ideal) q k (ix1 b)
      = 0 + ∑ j' : Fin 100000, Ideal.exp (Cert.Spec.sim q k b j' - rowMax q k b) := by
  rw [Read.val_main_v9_apply, Read.val_main_cst_1_apply, Ideal.ofBits_def, Ideal.ofBits_zero_f32]
  refine congrArg (0 + ·) (Finset.sum_congr rfl fun j' _ => ?_)
  have e : Read.idx_main_v9 (ix1 b) j' = ix2 b j' :=
    funext fun a => by match a with | ⟨0, _⟩ => rfl | ⟨1, _⟩ => rfl
  rw [e, exp_apply]

/-- The softmax weight at `(b, j)`. -/
theorem weight_apply (q : Cert.Spec.Arr2 1024 16) (k : Cert.Spec.Arr2 100000 16) (b : Fin 1024) (j : Fin 100000) :
    Read.val_main_v12 (F := Ideal) q k (ix2 b j)
      = Ideal.div (Ideal.exp (Cert.Spec.sim q k b j - rowMax q k b))
          (0 + ∑ j' : Fin 100000, Ideal.exp (Cert.Spec.sim q k b j' - rowMax q k b)) := by
  have e : Read.idx_main_v10 (Read.idx_main_v11 (ix2 b j)) = ix1 b :=
    funext fun a => by match a with | ⟨0, _⟩ => rfl
  rw [Read.val_main_v12_apply, Read.val_main_v11_apply, Read.val_main_v10_apply, Ideal.hostDivf_def, exp_apply, e,
    denom_apply]

/-- The reference's result at row `b`, column `c`: the softmax weights of row `b` (each `exp` of the shifted similarity
    over the row's sum of them, the sum taken from zero) against value column `c`. -/
theorem ref_apply (q : Cert.Spec.Arr2 1024 16) (k v : Cert.Spec.Arr2 100000 16) (b : Fin 1024) (c : Fin 16) :
    Cert.ReferenceIdeal.Read.val_main_v13 (F := Ideal) q k v (ix2 b c)
      = ∑ j : Fin 100000, Ideal.div (Ideal.exp (Cert.Spec.sim q k b j - rowMax q k b))
          (0 + ∑ j' : Fin 100000, Ideal.exp (Cert.Spec.sim q k b j' - rowMax q k b)) * v (ix2 j c) := by
  rw [Read.val_main_v13_apply]
  refine Finset.sum_congr rfl fun j _ => ?_
  have e1 : Read.lidx_main_v13 (ix2 b c) j = ix2 b j :=
    funext fun a => by match a with | ⟨0, _⟩ => rfl | ⟨1, _⟩ => rfl
  have e2 : Read.ridx_main_v13 (ix2 b c) j = ix2 j c :=
    funext fun a => by match a with | ⟨0, _⟩ => rfl | ⟨1, _⟩ => rfl
  rw [e1, e2, weight_apply]

end Cert.ReferenceIdeal.RefValue

end
-- ==== Proof.RefBridge.lean ====
import proofs.«175973_g19181323944180_cont_8to1_1754_2_alg».proof.Proof.RefValue
import proofs.«175973_g19181323944180_cont_8to1_1754_2_alg».proof.Proof.Readout

/-!
  The reference computes the attention readout.

  At row `b`, column `c` the reference's result is `∑_j (exp (s b j − M b) / Z b) · v[j, c]`, with `M b` the row's
  maximum similarity (a real number when the inputs are) and `Z b = ∑_j exp (s b j − M b)`. The shift by `M b`
  cancels between each weight's numerator and `Z b`, so this is `(∑_j exp (s b j) · v[j, c]) / ∑_j exp (s b j)`
  (`Cert.Softmax.ref_row`).
-/

noncomputable section

namespace Cert.ReferenceIdeal.RefValue

open Cert.ReferenceIdeal Idealize.ShloMosaic Idealize.ShloMosaic.ValueIdx Cert.Spec

/-- With real input entries, the reference's result array is the attention readout. -/
theorem ref_eq_readout (q : Arr2 1024 16) (k v : Arr2 100000 16)
    (hq : ∀ i, q i = (((q i).toReal : ℝ) : EReal)) (hk : ∀ i, k i = (((k i).toReal : ℝ) : EReal))
    (hv : ∀ i, v i = (((v i).toReal : ℝ) : EReal)) :
    Cert.ReferenceIdeal.Read.val_main_v13 (F := Ideal) q k v = readout q k v := by
  funext i
  obtain ⟨b, c, rfl⟩ : ∃ (b : Fin 1024) (c : Fin 16), i = ix2 b c := ⟨i 0, i 1, eq_ix2 i⟩
  rw [ref_apply, readout_apply]
  exact Cert.Softmax.ref_row (Sr q k b) (Wr v c) 100000 (by decide) (fun j => sim q k b j) (fun j => v (ix2 j c))
    (fun j => sim_real q k hq hk b j) (fun j => val_real v hv c j) (rowMax q k b) rfl

end Cert.ReferenceIdeal.RefValue

end
-- ==== Proof.lean ====
/-
  The certificate of a one-pass ("streaming") softmax readout against its two-pass reference.

  The kernel computes `softmax (q · kᵀ) · v` for queries `q : [1024, 16]`, keys `k : [100000, 16]`, values
  `v : [100000, 16]` in ONE sweep over 50 blocks of 2000 memory slots, carrying per query row a running maximum `m`, a
  denominator `l` and a numerator `acc` (seeded with the float −1e30, 0 and 0; rescaled by `exp (m − m')` whenever
  the maximum moves) and dividing at the end. The reference forms the whole [1024, 100000] similarity matrix,
  subtracts each row's maximum, exponentiates, normalizes and multiplies by `v`.

  Over the extended reals with every input entry a real number (the precondition) both are, at row `b` and column `c`,

      (∑_j exp (s b j) · v[j, c]) / (∑_j exp (s b j)),      s b j = ∑ d, q[b, d] · k[j, d]:

  the kernel's running sums are `∑ exp (s b j − μ)` and `∑ exp (s b j − μ) · v[j, c]` over the slots seen so far for
  some real shift `μ` (the invariant of the sweep; the finite seed only changes `μ`), and a common factor `exp (−μ)`
  cancels in the final quotient; the reference's shift by the row maximum cancels the same way.

  The three frames: the two kernels' are the generated frame certificates; the reference's is its generated run with
  the result dropped. The idealization rewrote nothing, so `preserves` is trivial.
-/
import proofs.«175973_g19181323944180_cont_8to1_1754_2_alg».proof.Defs
import proofs.«175973_g19181323944180_cont_8to1_1754_2_alg».proof.Proof.Gen.Kernel
import proofs.«175973_g19181323944180_cont_8to1_1754_2_alg».proof.Proof.Gen.Kernel.Skeleton
import proofs.«175973_g19181323944180_cont_8to1_1754_2_alg».proof.Proof.Gen.Kernel.Launch
import proofs.«175973_g19181323944180_cont_8to1_1754_2_alg».proof.Proof.Gen.Kernel.Points
import proofs.«175973_g19181323944180_cont_8to1_1754_2_alg».proof.Proof.Gen.Kernel.Frame
import proofs.«175973_g19181323944180_cont_8to1_1754_2_alg».proof.Proof.Gen.KernelIdeal
import proofs.«175973_g19181323944180_cont_8to1_1754_2_alg».proof.Proof.Gen.KernelIdeal.Skeleton
import proofs.«175973_g19181323944180_cont_8to1_1754_2_alg».proof.Proof.Gen.KernelIdeal.Launch
import proofs.«175973_g19181323944180_cont_8to1_1754_2_alg».proof.Proof.Gen.KernelIdeal.Points
import proofs.«175973_g19181323944180_cont_8to1_1754_2_alg».proof.Proof.Gen.KernelIdeal.Frame
import proofs.«175973_g19181323944180_cont_8to1_1754_2_alg».proof.Proof.Gen.ReferenceIdeal
import proofs.«175973_g19181323944180_cont_8to1_1754_2_alg».proof.Proof.Gen.Pre_finite_inputs
import proofs.«175973_g19181323944180_cont_8to1_1754_2_alg».proof.Proof.Gen.KernelIdeal.Value
import proofs.«175973_g19181323944180_cont_8to1_1754_2_alg».proof.Proof.Gen.ReferenceIdeal.Run
import proofs.«175973_g19181323944180_cont_8to1_1754_2_alg».proof.Proof.Gen.ReferenceIdeal.Read
import proofs.«175973_g19181323944180_cont_8to1_1754_2_alg».proof.Proof.FiniteInputs
import proofs.«175973_g19181323944180_cont_8to1_1754_2_alg».proof.Proof.KFinal
import proofs.«175973_g19181323944180_cont_8to1_1754_2_alg».proof.Proof.RefBridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- At the ideal values, from memories that agree on the three arguments and satisfy the precondition, the kernel's
    result array ends at the attention readout of its arguments (the sweep's invariant and the final quotient) and the
    reference's at its two-pass softmax readout of the same arrays, which is the same function. -/
theorem algebraic : Cert.algebraic_KernelIdeal_ReferenceIdeal := by
  intro m ρ m' ρ' hpre hagree
  have hfin := fun c => Cert.Finite.real_of_pre _ _ _ (hpre c)
  refine ⟨fun c => Cert.KernelIdeal.KV.result m c, Cert.KernelIdeal.KV.run m ρ hfin, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v13_eq _ _ _).trans ?_
  rw [(hagree c).1, (hagree c).2.1, (hagree c).2.2]
  exact Cert.ReferenceIdeal.RefValue.ref_eq_readout _ _ _ (hfin c).1 (hfin c).2.1 (hfin c).2.2

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
